-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x32768 : Shape := ⟨2, ![512, 32768]⟩
abbrev S128x32768 : Shape := ⟨2, ![128, 32768]⟩
abbrev S_ : Shape := ⟨0, ![]⟩

class Facts : Prop where
  bcast_S_S512x32768 : S_.BroadcastsInDim S512x32768 (![] : Fin 0 → Fin S512x32768.rank)
  reducesTo_S512x32768_S_d0_1 : S512x32768.ReducesTo [0, 1] S_
  h_S_ : 0 < S_.numel
  bcast_S_S128x32768 : S_.BroadcastsInDim S128x32768 (![] : Fin 0 → Fin S128x32768.rank)
  reducesTo_S128x32768_S_d0_1 : S128x32768.ReducesTo [0, 1] S_

variable [Facts]

def fn {F : FTy → Type} [FloatOps F] (main_arg0 : FVec F S512x32768 .f32) (main_arg1 : FVec F S128x32768 .f32) : IVec S_ 1 :=
  let main_v0 : FVec F S512x32768 .f32 := Host.absf main_arg0
  let main_cst : FVec F S_ .f32 := constant S_ .f32 0x7F800000#32
  let main_v1 : FVec F S512x32768 .f32 := broadcastInDim S512x32768 ![] bcast_S_S512x32768 main_cst
  let main_v2 : IVec S512x32768 1 := cmpf .olt main_v0 main_v1
  let main_c : IVec S_ 1 := constantI S_ 1 1#1
  let main_v3 : IVec S_ 1 := (fun x v => Host.reduce IntOp.andi x v reducesTo_S512x32768_S_d0_1 h_S_) main_v2 main_c
  let main_v4 : FVec F S128x32768 .f32 := Host.absf main_arg1
  let main_cst_0 : FVec F S_ .f32 := constant S_ .f32 0x7F800000#32
  let main_v5 : FVec F S128x32768 .f32 := broadcastInDim S128x32768 ![] bcast_S_S128x32768 main_cst_0
  let main_v6 : IVec S128x32768 1 := cmpf .olt main_v4 main_v5
  let main_c_1 : IVec S_ 1 := constantI S_ 1 1#1
  let main_v7 : IVec S_ 1 := (fun x v => Host.reduce IntOp.andi x v reducesTo_S128x32768_S_d0_1 h_S_) main_v6 main_c_1
  let main_v8 : IVec S_ 1 := andi main_v3 main_v7
  main_v8
-- ==== Kernel.lean ====
abbrev S512x32768 : Shape := ⟨2, ![512, 32768]⟩
abbrev S128x32768 : Shape := ⟨2, ![128, 32768]⟩
abbrev S128x512 : Shape := ⟨2, ![128, 512]⟩
abbrev S128x4096 : Shape := ⟨2, ![128, 4096]⟩
abbrev S512x4096 : Shape := ⟨2, ![512, 4096]⟩
abbrev S128x1 : Shape := ⟨2, ![128, 1]⟩
abbrev S512x1 : Shape := ⟨2, ![512, 1]⟩
abbrev S128 : Shape := ⟨1, ![128]⟩
abbrev S512 : Shape := ⟨1, ![512]⟩
abbrev S1x512 : Shape := ⟨2, ![1, 512]⟩

abbrev nBuf : Space → Nat
  | .hbm => 4
  | .vmem => 13
  | .smem => 0
  | _ => 0

abbrev bufTy : (tb : Table) → Fin (tcTables nBuf tb) → BufTy
  | .hbm, ⟨0, _⟩ => ⟨S512x32768, .f32⟩
  | .hbm, ⟨1, _⟩ => ⟨S128x32768, .f32⟩
  | .hbm, ⟨2, _⟩ => ⟨S128x512, .f32⟩
  | .hbm, ⟨3, _⟩ => ⟨S128x32768, .f32⟩
  | .local _ .vmem, ⟨0, _⟩ => ⟨S128x4096, .f32⟩
  | .local _ .vmem, ⟨1, _⟩ => ⟨S128x4096, .f32⟩
  | .local _ .vmem, ⟨2, _⟩ => ⟨S512x4096, .f32⟩
  | .local _ .vmem, ⟨3, _⟩ => ⟨S512x4096, .f32⟩
  | .local _ .vmem, ⟨4, _⟩ => ⟨S128x512, .f32⟩
  | .local _ .vmem, ⟨5, _⟩ => ⟨S128x512, .f32⟩
  | .local _ .vmem, ⟨6, _⟩ => ⟨S128x1, .f32⟩
  | .local _ .vmem, ⟨7, _⟩ => ⟨S512x1, .f32⟩
  | .local _ .vmem, ⟨8, _⟩ => ⟨S128x512, .f32⟩
  | .local _ .vmem, ⟨9, _⟩ => ⟨S512x4096, .f32⟩
  | .local _ .vmem, ⟨10, _⟩ => ⟨S512x4096, .f32⟩
  | .local _ .vmem, ⟨11, _⟩ => ⟨S128x4096, .f32⟩
  | .local _ .vmem, ⟨12, _⟩ => ⟨S128x4096, .f32⟩
  | _, _ => ⟨S512x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32_18 : BitVec 32 := 0#32
  let v29 : BitVec 1 := Scalar.cmpi .ne v28 c0_i32_18
  v29

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S128x4096_S128x4096_0_0 : ∀ a, (![0, 0] : Fin 2 → Nat) a + S128x4096.size a ≤ S128x4096.size a
  h_S128x4096 : 0 < S128x4096.numel
  inb_S512x4096_S512x4096_0_0 : ∀ a, (![0, 0] : Fin 2 → Nat) a + S512x4096.size a ≤ S512x4096.size a
  h_S512x4096 : 0 < S512x4096.numel
  reduces_S128x4096_S128 : S128x4096.Reduces [1] S128
  shapeCasts_S128_S128x1 : S128.ShapeCasts S128x1
  reduces_S512x4096_S512 : S512x4096.Reduces [1] S512
  shapeCasts_S512_S512x1 : S512.ShapeCasts S512x1
  bitsLt_bf16_f32 : FTy.bits .bf16 < FTy.bits .f32
  transposes_S512x1_p1_0_S1x512 : S512x1.Transposes [1, 0] S1x512
  broadcasts_S128x1_S128x512 : S128x1.Broadcasts S128x512
  broadcasts_S1x512_S128x512 : S1x512.Broadcasts S128x512
  dot_S128x4096_S512x4096_S128x512_1_1_0_0_n_n_wf : DotDims.WF S128x4096 S512x4096 S128x512 [1] [1] [0] [0] [] []
  dot_S128x512_S512x4096_S128x4096_1_0_0_1_n_n_wf : DotDims.WF S128x512 S512x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x32768.size a
  hwx0_0 : ∀ i : grid0.Coords, EltTy.bits .f32 = 32 ∨ (Rect.block (s := S128x32768) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x32768.size a
  hwx0_1 : ∀ i : grid0.Coords, EltTy.bits .f32 = 32 ∨ (Rect.block (s := S512x32768) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S128x512.size a
  hwx1_0 : ∀ i : grid1.Coords, EltTy.bits .f32 = 32 ∨ (Rect.block (s := S128x512) S128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S512x32768.size a
  hwx1_1 : ∀ i : grid1.Coords, EltTy.bits .f32 = 32 ∨ (Rect.block (s := S512x32768) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S128x32768.size a
  hwx1_2 : ∀ i : grid1.Coords, EltTy.bits .f32 = 32 ∨ (Rect.block (s := S128x32768) S128x4096.size (cc1_transform_2 i) (hinb1_2 i)).WholeWords (EltTy.packing .f32)

variable [Facts₀]

def dot_S128x4096_S512x4096_S128x512_1_1_0_0_n_n : DotDims S128x4096 S512x4096 S128x512 where
  lhsContracting := [1]
  rhsContracting := [1]
  lhsNonContracting := [0]
  rhsNonContracting := [0]
  lhsBatch := []
  rhsBatch := []
  wf := dot_S128x4096_S512x4096_S128x512_1_1_0_0_n_n_wf
def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf

abbrev win0_0 : Pipeline.Window sig grid0 :=
  Pipeline.Window.ofSpec (Memref.whole main_arg1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S128x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x32768 : Shape := ⟨2, ![512, 32768]⟩
abbrev S128x32768 : Shape := ⟨2, ![128, 32768]⟩
abbrev S_ : Shape := ⟨0, ![]⟩
abbrev S128 : Shape := ⟨1, ![128]⟩
abbrev S128x1 : Shape := ⟨2, ![128, 1]⟩
abbrev S128x512 : Shape := ⟨2, ![128, 512]⟩

abbrev nBuf : Space → Nat
  | .hbm => 12
  | .vmem => 0
  | .smem => 0
  | _ => 0

abbrev bufTy : (tb : Table) → Fin (tcTables nBuf tb) → BufTy
  | .hbm, ⟨0, _⟩ => ⟨S512x32768, .f32⟩
  | .hbm, ⟨1, _⟩ => ⟨S128x32768, .f32⟩
  | .hbm, ⟨2, _⟩ => ⟨S_, .f32⟩
  | .hbm, ⟨3, _⟩ => ⟨S128, .f32⟩
  | .hbm, ⟨4, _⟩ => ⟨S128x1, .f32⟩
  | .hbm, ⟨5, _⟩ => ⟨S_, .f32⟩
  | .hbm, ⟨6, _⟩ => ⟨S128x1, .f32⟩
  | .hbm, ⟨7, _⟩ => ⟨S128x1, .f32⟩
  | .hbm, ⟨8, _⟩ => ⟨S128x32768, .f32⟩
  | .hbm, ⟨9, _⟩ => ⟨S128x32768, .f32⟩
  | .hbm, ⟨10, _⟩ => ⟨S128x512, .f32⟩
  | .hbm, ⟨11, _⟩ => ⟨S128x32768, .f32⟩
  | _, _ => ⟨S512x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  reducesTo_S128x32768_S128_d1 : S128x32768.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x32768_0_1 : S128x1.BroadcastsInDim S128x32768 (![0, 1] : Fin 2 → Fin S128x32768.rank)
  dot_S128x32768_S512x32768_S128x512_1_1_0_0_n_n_wf : DotDims.WF S128x32768 S512x32768 S128x512 [1] [1] [0] [0] [] []
  dot_S128x512_S512x32768_S128x32768_1_0_0_1_n_n_wf : DotDims.WF S128x512 S512x32768 S128x32768 [1] [0] [0] [1] [] []

variable [Facts₀]

def dot_S128x32768_S512x32768_S128x512_1_1_0_0_n_n : DotDims S128x32768 S512x32768 S128x512 where
  lhsContracting := [1]
  rhsContracting := [1]
  lhsNonContracting := [0]
  rhsNonContracting := [0]
  lhsBatch := []
  rhsBatch := []
  wf := dot_S128x32768_S512x32768_S128x512_1_1_0_0_n_n_wf
def dot_S128x512_S512x32768_S128x32768_1_0_0_1_n_n : DotDims S128x512 S512x32768 S128x32768 where
  lhsContracting := [1]
  rhsContracting := [0]
  lhsNonContracting := [0]
  rhsNonContracting := [1]
  lhsBatch := []
  rhsBatch := []
  wf := dot_S128x512_S512x32768_S128x32768_1_0_0_1_n_n_wf

class Facts : Prop extends Facts₀ where

variable [Facts]
-- ==== Proof.K.R0Base.lean ====
/-
  Region 0 (the centring product): what every later module about it is stated over.
  The region runs the kernel at eight grid points; point t sees columns [4096 t, 4096 (t+1)) of Psi and of x.
  Three scratch buffers are carried from point to point (the running product, the running row sums of Psi, the
  running row sums of x); they are zeroed at point 0, and at point 7 the output block is stored from them.
  Here: a window's block at a point read off the array the region finds, the fact that an input's staging buffer
  holds that block at every point, the two branch conditions in closed form, where the output window is idle,
  and the region's invariant with every scoped buffer spelled out.
-/
import proofs.«128776_j4466765988635_1_alg».proof.Proof.Gen.Kernel.Launch
import proofs.«128776_j4466765988635_1_alg».proof.Proof.Gen.Kernel.Skeleton
import proofs.«128776_j4466765988635_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The Psi window's staging buffer holds its block at every point, for any proof data over the entry contents whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the x window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions -/

/-- "This is the first point": the scratch buffers are zeroed under it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last point": the output block is stored under it. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point nothing is stored into the output window and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called on -/

abbrev VO0_2 : View sig .tc .vmem S128x512 .f32 := (Memref.whole cc0_stg2_0 : Memref sig .tc .vmem S128x512 .f32).view
abbrev ms0_0 (t : Fin cfg0.N) : Memref sig .tc .vmem S128x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .f32 := win0_2.stage (cfg0.slots t 2)
abbrev hs0_2 (t : Fin cfg0.N) : (ms0_2 t).IsWhole := hstage0_2 ((cfg0.slots t 2).cast nbuf0_2)
/-- The three carried scratch buffers: the running product, Psi's running row sums, x's running row sums. -/
abbrev scM0_0 : Memref sig .tc .vmem S128x512 .f32 := Memref.whole cc0_scratch0
abbrev scM0_1 : Memref sig .tc .vmem S128x1 .f32 := Memref.whole cc0_scratch1
abbrev scM0_2 : Memref sig .tc .vmem S512x1 .f32 := Memref.whole cc0_scratch2
abbrev VS0_0 : View sig .tc .vmem S128x512 .f32 := scM0_0.view
abbrev VS0_1 : View sig .tc .vmem S128x1 .f32 := scM0_1.view
abbrev VS0_2 : View sig .tc .vmem S512x1 .f32 := scM0_2.view

/-- The scoped buffers of the core that region 0 never touches (the second region's staging buffers), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's plain invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ others0 (F := F) c) ∗ (∃ r, prngReg c r)) := by
  unfold Pipeline.ΦA others0; rw [scopedRest0_eq]; simp only [scM0_0, scM0_1, scM0_2, owns_whole]; try rfl

end Cert.Kernel.Hand

end
-- ==== Proof.K.R0RunA.lean ====
/-
  Region 0's kernel body run whole at the first point: the scratch buffers, at anything, are zeroed first; nothing is stored into the output block.
  The run is over the body's skeleton of loads and stores; what each buffer ends with is recorded as the list of pieces
  stored into it, last first, and the pieces are found by the run itself.
-/
import proofs.«128776_j4466765988635_1_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the three scratch buffers at the first point, with the
    proof that on whole memrefs — the two input blocks at their contents — the body runs to the continuation holding the
    inputs as they were and each buffer it stored into with its pieces written. -/
noncomputable def kernelRun0_A (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) :
    Σ' (L2 : List (View.Piece (Elt F) S128x512 .f32)) (LS0 : List (View.Piece (Elt F) S128x512 .f32)) (LS1 : List (View.Piece (Elt F) S128x1 .f32)), { LS2 : List (View.Piece (Elt F) S512x1 .f32) //
      ∀ (xi2 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0_centering_matmul_kernel i arg1 harg1 arg2 harg2 arg3 harg3 arg4 harg4 arg5 harg5 arg6 harg6) K } := by
  refine ⟨[], ?_, ?_, ?_, fun xi2 E K => ?run⟩
  case run =>
    simp only [cc0_centering_matmul_kernel_eq_skeleton]; unfold cc0_centering_matmul_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    iexists _; iexact HS2

end Cert.Kernel.Hand

end
-- ==== Proof.K.R0RunB.lean ====
/-
  Region 0's kernel body run whole at a middle point: the scratch buffers hold what the point before left; nothing is stored into the output block.
  The run is over the body's skeleton of loads and stores; what each buffer ends with is recorded as the list of pieces
  stored into it, last first, and the pieces are found by the run itself.
-/
import proofs.«128776_j4466765988635_1_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the three scratch buffers at a middle point, with the
    proof that on whole memrefs — the two input blocks at their contents — the body runs to the continuation holding the
    inputs as they were and each buffer it stored into with its pieces written. -/
noncomputable def kernelRun0_B (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) :
    Σ' (L2 : List (View.Piece (Elt F) S128x512 .f32)) (LS0 : List (View.Piece (Elt F) S128x512 .f32)) (LS1 : List (View.Piece (Elt F) S128x1 .f32)), { LS2 : List (View.Piece (Elt F) S512x1 .f32) //
      ∀ (xi2 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1 ∗ owns (c : Thread nD τ) arg6 fullShare xs2
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0_centering_matmul_kernel i arg1 harg1 arg2 harg2 arg3 harg3 arg4 harg4 arg5 harg5 arg6 harg6) K } := by
  refine ⟨[], ?_, ?_, ?_, fun xi2 E K => ?run⟩
  case run =>
    simp only [cc0_centering_matmul_kernel_eq_skeleton]; unfold cc0_centering_matmul_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hfs0; obtain rfl := harg5.eq_unread hfs1; obtain rfl := harg6.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    iexists _; iexact HS2

end Cert.Kernel.Hand

end
-- ==== Proof.K.R0RunC.lean ====
/-
  Region 0's kernel body run whole at the last point: the scratch buffers hold what the point before left; the output block is stored from them.
  The run is over the body's skeleton of loads and stores; what each buffer ends with is recorded as the list of pieces
  stored into it, last first, and the pieces are found by the run itself.
-/
import proofs.«128776_j4466765988635_1_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the three scratch buffers at the last point, with the
    proof that on whole memrefs — the two input blocks at their contents — the body runs to the continuation holding the
    inputs as they were and each buffer it stored into with its pieces written. -/
noncomputable def kernelRun0_C (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) :
    Σ' (L2 : List (View.Piece (Elt F) S128x512 .f32)) (LS0 : List (View.Piece (Elt F) S128x512 .f32)) (LS1 : List (View.Piece (Elt F) S128x1 .f32)), { LS2 : List (View.Piece (Elt F) S512x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1 ∗ owns (c : Thread nD τ) arg6 fullShare xs2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0_centering_matmul_kernel i arg1 harg1 arg2 harg2 arg3 harg3 arg4 harg4 arg5 harg5 arg6 harg6) K } := by
  refine ⟨?_, ?_, ?_, ?_, fun E K => ?run⟩
  case run =>
    simp only [cc0_centering_matmul_kernel_eq_skeleton]; unfold cc0_centering_matmul_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg4.eq_unread hfs0; obtain rfl := harg5.eq_unread hfs1; obtain rfl := harg6.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    isplitl [HS1]; · iexists _; iexact HS1
    iexists _; iexact HS2

end Cert.Kernel.Hand

end
-- ==== Proof.K.R0Frame.lean ====
/-
  Region 0, point by point: what the output block and the three carried scratch buffers hold after each of the eight
  grid points, the invariant that carries the scratch buffers from one point to the next, the pipeline's proof data,
  and the body obligation at every point.
  Point 0 is the first case (scratch zeroed, then updated); points 1 to 6 the middle case (scratch updated from what the
  point before left); point 7 the last case (scratch updated, and the output block stored from it).
-/
import proofs.«128776_j4466765988635_1_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in each buffer -/

/-- What the output block's staging buffer reads as after the body in case A (nothing is stored there: a placeholder nothing consults). -/
def out0_A_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) : Vec F S128x512 .f32 :=
  VO0_2.read (Elt F) (VO0_2.writes (Elt F) VO0_2.junk (kernelRun0_A (F := F) c i arg1 harg1 arg2 harg2 arg3 harg3 arg4 harg4 arg5 harg5 arg6 harg6 hc0 hc1 x0 x1).1)

/-- In case A the stores into scratch buffer 0 tile it. -/
theorem scover0_A_0 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) (y : S128x512.Idx) :
    ∃ pc ∈ (kernelRun0_A (F := F) c i arg1 harg1 arg2 harg2 arg3 harg3 arg4 harg4 arg5 harg5 arg6 harg6 hc0 hc1 x0 x1).2.1, y ∈ pc.1.set :=
  View.cover_of_tiledL (kernelRun0_A (F := F) c i arg1 harg1 arg2 harg2 arg3 harg3 arg4 harg4 arg5 harg5 arg6 harg6 hc0 hc1 x0 x1).2.1 S128x512.size (by sl_kernel_rfl) y

/-- What case A leaves in scratch buffer 0. -/
def sout0_A_0 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) : Vec F S128x512 .f32 :=
  VS0_0.read (Elt F) (VS0_0.writes (Elt F) VS0_0.junk (kernelRun0_A (F := F) c i arg1 harg1 arg2 harg2 arg3 harg3 arg4 harg4 arg5 harg5 arg6 harg6 hc0 hc1 x0 x1).2.1)

/-- In case A the stores into scratch buffer 1 tile it. -/
theorem scover0_A_1 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) (y : S128x1.Idx) :
    ∃ pc ∈ (kernelRun0_A (F := F) c i arg1 harg1 arg2 harg2 arg3 harg3 arg4 harg4 arg5 harg5 arg6 harg6 hc0 hc1 x0 x1).2.2.1, y ∈ pc.1.set :=
  View.cover_of_tiledL (kernelRun0_A (F := F) c i arg1 harg1 arg2 harg2 arg3 harg3 arg4 harg4 arg5 harg5 arg6 harg6 hc0 hc1 x0 x1).2.2.1 S128x1.size (by sl_kernel_rfl) y

/-- What case A leaves in scratch buffer 1. -/
def sout0_A_1 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) : Vec F S128x1 .f32 :=
  VS0_1.read (Elt F) (VS0_1.writes (Elt F) VS0_1.junk (kernelRun0_A (F := F) c i arg1 harg1 arg2 harg2 arg3 harg3 arg4 harg4 arg5 harg5 arg6 harg6 hc0 hc1 x0 x1).2.2.1)

/-- In case A the stores into scratch buffer 2 tile it. -/
theorem scover0_A_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) (y : S512x1.Idx) :
    ∃ pc ∈ (kernelRun0_A (F := F) c i arg1 harg1 arg2 harg2 arg3 harg3 arg4 harg4 arg5 harg5 arg6 harg6 hc0 hc1 x0 x1).2.2.2.1, y ∈ pc.1.set :=
  View.cover_of_tiledL (kernelRun0_A (F := F) c i arg1 harg1 arg2 harg2 arg3 harg3 arg4 harg4 arg5 harg5 arg6 harg6 hc0 hc1 x0 x1).2.2.2.1 S512x1.size (by sl_kernel_rfl) y

/-- What case A leaves in scratch buffer 2. -/
def sout0_A_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) : Vec F S512x1 .f32 :=
  VS0_2.read (Elt F) (VS0_2.writes (Elt F) VS0_2.junk (kernelRun0_A (F := F) c i arg1 harg1 arg2 harg2 arg3 harg3 arg4 harg4 arg5 harg5 arg6 harg6 hc0 hc1 x0 x1).2.2.2.1)

/-- What the output block's staging buffer reads as after the body in case B (nothing is stored there: a placeholder nothing consults). -/
def out0_B_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) : Vec F S128x512 .f32 :=
  VO0_2.read (Elt F) (VO0_2.writes (Elt F) VO0_2.junk (kernelRun0_B (F := F) c i arg1 harg1 arg2 harg2 arg3 harg3 arg4 harg4 arg5 harg5 arg6 harg6 hc0 hc1 x0 x1 xs0 xs1 xs2).1)

/-- In case B the stores into scratch buffer 0 tile it. -/
theorem scover0_B_0 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) (y : S128x512.Idx) :
    ∃ pc ∈ (kernelRun0_B (F := F) c i arg1 harg1 arg2 harg2 arg3 harg3 arg4 harg4 arg5 harg5 arg6 harg6 hc0 hc1 x0 x1 xs0 xs1 xs2).2.1, y ∈ pc.1.set :=
  View.cover_of_tiledL (kernelRun0_B (F := F) c i arg1 harg1 arg2 harg2 arg3 harg3 arg4 harg4 arg5 harg5 arg6 harg6 hc0 hc1 x0 x1 xs0 xs1 xs2).2.1 S128x512.size (by sl_kernel_rfl) y

/-- What case B leaves in scratch buffer 0. -/
def sout0_B_0 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) : Vec F S128x512 .f32 :=
  VS0_0.read (Elt F) (VS0_0.writes (Elt F) VS0_0.junk (kernelRun0_B (F := F) c i arg1 harg1 arg2 harg2 arg3 harg3 arg4 harg4 arg5 harg5 arg6 harg6 hc0 hc1 x0 x1 xs0 xs1 xs2).2.1)

/-- In case B the stores into scratch buffer 1 tile it. -/
theorem scover0_B_1 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) (y : S128x1.Idx) :
    ∃ pc ∈ (kernelRun0_B (F := F) c i arg1 harg1 arg2 harg2 arg3 harg3 arg4 harg4 arg5 harg5 arg6 harg6 hc0 hc1 x0 x1 xs0 xs1 xs2).2.2.1, y ∈ pc.1.set :=
  View.cover_of_tiledL (kernelRun0_B (F := F) c i arg1 harg1 arg2 harg2 arg3 harg3 arg4 harg4 arg5 harg5 arg6 harg6 hc0 hc1 x0 x1 xs0 xs1 xs2).2.2.1 S128x1.size (by sl_kernel_rfl) y

/-- What case B leaves in scratch buffer 1. -/
def sout0_B_1 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) : Vec F S128x1 .f32 :=
  VS0_1.read (Elt F) (VS0_1.writes (Elt F) VS0_1.junk (kernelRun0_B (F := F) c i arg1 harg1 arg2 harg2 arg3 harg3 arg4 harg4 arg5 harg5 arg6 harg6 hc0 hc1 x0 x1 xs0 xs1 xs2).2.2.1)

/-- In case B the stores into scratch buffer 2 tile it. -/
theorem scover0_B_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) (y : S512x1.Idx) :
    ∃ pc ∈ (kernelRun0_B (F := F) c i arg1 harg1 arg2 harg2 arg3 harg3 arg4 harg4 arg5 harg5 arg6 harg6 hc0 hc1 x0 x1 xs0 xs1 xs2).2.2.2.1, y ∈ pc.1.set :=
  View.cover_of_tiledL (kernelRun0_B (F := F) c i arg1 harg1 arg2 harg2 arg3 harg3 arg4 harg4 arg5 harg5 arg6 harg6 hc0 hc1 x0 x1 xs0 xs1 xs2).2.2.2.1 S512x1.size (by sl_kernel_rfl) y

/-- What case B leaves in scratch buffer 2. -/
def sout0_B_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) : Vec F S512x1 .f32 :=
  VS0_2.read (Elt F) (VS0_2.writes (Elt F) VS0_2.junk (kernelRun0_B (F := F) c i arg1 harg1 arg2 harg2 arg3 harg3 arg4 harg4 arg5 harg5 arg6 harg6 hc0 hc1 x0 x1 xs0 xs1 xs2).2.2.2.1)

/-- What the output block's staging buffer reads as after the body in case C. -/
def out0_C_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) : Vec F S128x512 .f32 :=
  VO0_2.read (Elt F) (VO0_2.writes (Elt F) VO0_2.junk (kernelRun0_C (F := F) c i arg1 harg1 arg2 harg2 arg3 harg3 arg4 harg4 arg5 harg5 arg6 harg6 hc0 hc1 x0 x1 xs0 xs1 xs2).1)

/-- In case C the stores into the output block tile it. -/
theorem cover0_C_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) (y : S128x512.Idx) :
    ∃ pc ∈ (kernelRun0_C (F := F) c i arg1 harg1 arg2 harg2 arg3 harg3 arg4 harg4 arg5 harg5 arg6 harg6 hc0 hc1 x0 x1 xs0 xs1 xs2).1, y ∈ pc.1.set :=
  View.cover_of_tiledL (kernelRun0_C (F := F) c i arg1 harg1 arg2 harg2 arg3 harg3 arg4 harg4 arg5 harg5 arg6 harg6 hc0 hc1 x0 x1 xs0 xs1 xs2).1 S128x512.size (by sl_kernel_rfl) y

/-- In case C the stores into scratch buffer 0 tile it. -/
theorem scover0_C_0 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) (y : S128x512.Idx) :
    ∃ pc ∈ (kernelRun0_C (F := F) c i arg1 harg1 arg2 harg2 arg3 harg3 arg4 harg4 arg5 harg5 arg6 harg6 hc0 hc1 x0 x1 xs0 xs1 xs2).2.1, y ∈ pc.1.set :=
  View.cover_of_tiledL (kernelRun0_C (F := F) c i arg1 harg1 arg2 harg2 arg3 harg3 arg4 harg4 arg5 harg5 arg6 harg6 hc0 hc1 x0 x1 xs0 xs1 xs2).2.1 S128x512.size (by sl_kernel_rfl) y

/-- What case C leaves in scratch buffer 0. -/
def sout0_C_0 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) : Vec F S128x512 .f32 :=
  VS0_0.read (Elt F) (VS0_0.writes (Elt F) VS0_0.junk (kernelRun0_C (F := F) c i arg1 harg1 arg2 harg2 arg3 harg3 arg4 harg4 arg5 harg5 arg6 harg6 hc0 hc1 x0 x1 xs0 xs1 xs2).2.1)

/-- In case C the stores into scratch buffer 1 tile it. -/
theorem scover0_C_1 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) (y : S128x1.Idx) :
    ∃ pc ∈ (kernelRun0_C (F := F) c i arg1 harg1 arg2 harg2 arg3 harg3 arg4 harg4 arg5 harg5 arg6 harg6 hc0 hc1 x0 x1 xs0 xs1 xs2).2.2.1, y ∈ pc.1.set :=
  View.cover_of_tiledL (kernelRun0_C (F := F) c i arg1 harg1 arg2 harg2 arg3 harg3 arg4 harg4 arg5 harg5 arg6 harg6 hc0 hc1 x0 x1 xs0 xs1 xs2).2.2.1 S128x1.size (by sl_kernel_rfl) y

/-- What case C leaves in scratch buffer 1. -/
def sout0_C_1 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) : Vec F S128x1 .f32 :=
  VS0_1.read (Elt F) (VS0_1.writes (Elt F) VS0_1.junk (kernelRun0_C (F := F) c i arg1 harg1 arg2 harg2 arg3 harg3 arg4 harg4 arg5 harg5 arg6 harg6 hc0 hc1 x0 x1 xs0 xs1 xs2).2.2.1)

/-- In case C the stores into scratch buffer 2 tile it. -/
theorem scover0_C_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) (y : S512x1.Idx) :
    ∃ pc ∈ (kernelRun0_C (F := F) c i arg1 harg1 arg2 harg2 arg3 harg3 arg4 harg4 arg5 harg5 arg6 harg6 hc0 hc1 x0 x1 xs0 xs1 xs2).2.2.2.1, y ∈ pc.1.set :=
  View.cover_of_tiledL (kernelRun0_C (F := F) c i arg1 harg1 arg2 harg2 arg3 harg3 arg4 harg4 arg5 harg5 arg6 harg6 hc0 hc1 x0 x1 xs0 xs1 xs2).2.2.2.1 S512x1.size (by sl_kernel_rfl) y

/-- What case C leaves in scratch buffer 2. -/
def sout0_C_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) : Vec F S512x1 .f32 :=
  VS0_2.read (Elt F) (VS0_2.writes (Elt F) VS0_2.junk (kernelRun0_C (F := F) c i arg1 harg1 arg2 harg2 arg3 harg3 arg4 harg4 arg5 harg5 arg6 harg6 hc0 hc1 x0 x1 xs0 xs1 xs2).2.2.2.1)

/-! ## What the buffers hold after each point -/

/-- After the body at position n: the output block's buffer, then the three scratch buffers. The case is read off the
    position; a middle or last point's run starts from the scratch contents the point before left. -/
def outsAt0 (c : Dev nD) : (n : ℕ) → n < cfg0.N → Vec F S128x512 .f32 × Vec F S128x512 .f32 × Vec F S128x1 .f32 × Vec F S512x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      False.elim (by have hN : n + 1 < 8 := lt_of_lt_of_eq hn (show cfg0.N = 8 from N_0); omega)
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t), sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (by exfalso; have hN : n + 1 < 8 := lt_of_lt_of_eq hn (show cfg0.N = 8 from N_0); (try dsimp only at h0); omega)

theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch buffers -/

/-- Before position n: at the first point every scoped buffer is at anything; afterwards the three scratch buffers hold
    what the point before left, the other scoped buffers anything, and the generator register some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ others0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2) ∗ others0 (F := F) c) ∗ (∃ r, prngReg c r)) := by
  cases n with
  | zero => exact absurd rfl hz
  | succ n => rfl

/-! ## The pipeline's proof data -/

/-- Region 0's proof data on core c: the arrays as the region finds them; after the body at point t each input's buffer
    at its block and the output's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the position says which case applies; the invariant
    hands the body the scratch buffers at what the point before left (at anything at the first point) and takes them back
    at this point's contents; away from the last point the output block's buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 8 = 7
  · have h0 : ¬t.val % 8 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C_2 sout0_C_0 sout0_C_1 sout0_C_2; (try dsimp only)
    rw [PhiS_castSucc V c t, PhiS_pos V c _ _ hz]
    iintro ⟨⟨⟨HS0, HS1, HS2, Hoth⟩, Hg⟩, Ho, ⟨%d0, H0⟩, ⟨%d1, H1⟩, ⟨%d2, H2⟩⟩
    iapply ((kernelRun0_C c (grid0.coords t) _ _ _ _ _ _ _ _ _ _ _ _ (fun h => h0 ((hcond0_0 t).mp h)) ((hcond0_1 t).mpr h1) (iblk0 V c 0 t) (iblk0 V c 1 t) _ _ _).2.2.2.2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e2, H2⟩, ⟨%es0, HS0⟩, ⟨%es1, HS1⟩, ⟨%es2, HS2⟩⟩
    isplitl [HS0 HS1 HS2 Hoth Hg]
    · isplitl [HS0 HS1 HS2 Hoth]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _)
        isplitl [HS2]
        · unfold owns; iexists _; isplitr
          swap; · iexact HS2
          ipureintro; exact View.read_writes_of_cover _ _ _ _ _ (scover0_C_2 c _ _ _ _ _ _ _ _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C_2 c _ _ _ _ _ _ _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 8 = 0
    · have hz : t.val = 0 := by omega
      rw [outsAt0_A V c t h0 h1]
      unfold sout0_A_0 sout0_A_1 sout0_A_2; (try dsimp only)
      rw [PhiS_castSucc V c t, PhiS_zero V c _ _ hz, PhiA0_eq]
      iintro ⟨⟨⟨HS0, HS1, HS2, Hoth⟩, Hg⟩, Ho, ⟨%d0, H0⟩, ⟨%d1, H1⟩, ⟨%d2, H2⟩⟩
      iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hoth Hg]
      · isplitl [HS0 HS1 HS2 Hoth]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _)
          iexact Hoth
        iexact Hg
      isplitl [Ho]; · iexact Ho
      isplitl [H0]; · iexact H0
      isplitl [H1]; · iexact H1
      iexists _; iexact H2
    · have hz : t.val ≠ 0 := by omega
      rw [outsAt0_B V c t h0 h1]
      unfold sout0_B_0 sout0_B_1 sout0_B_2; (try dsimp only)
      rw [PhiS_castSucc V c t, PhiS_pos V c _ _ hz]
      iintro ⟨⟨⟨HS0, HS1, HS2, Hoth⟩, Hg⟩, Ho, ⟨%d0, H0⟩, ⟨%d1, H1⟩, ⟨%d2, H2⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hoth Hg]
      · isplitl [HS0 HS1 HS2 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the plain one back: the scratch contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, Hoth⟩, Hg⟩
  isplitl [HS0 HS1 HS2 Hoth]
  · isplitl [HS0]; · iexists _; iexact HS0
    isplitl [HS1]; · iexists _; iexact HS1
    isplitl [HS2]; · iexists _; iexact HS2
    iexact Hoth
  iexact Hg

theorem hout0 (c : Dev nD) : (dat0 V c).Φ (Fin.last cfg0.N) ⊢ Pipeline.ΦA spec0 c :=
  Phi_out0 V c _ (by rw [Fin.val_last]; have : cfg0.N = 8 := N_0; omega)

end Cert.Kernel.Hand

end
-- ==== Proof.K.R1Frame.lean ====
/-
  Region 1 (the output product), its frame half, at the contents V the region finds.
  The region runs the kernel at eight grid points. The centred matrix (128 x 512) is one block, brought in once at the
  first point and kept; point t sees columns [4096 t, 4096 (t+1)) of x (512 x 4096) and writes the same columns of the
  result (128 x 4096), every point writing its block back. The body reads the two input blocks, reads the output buffer
  (the value is not used) and overwrites the whole output buffer with the product of the two blocks.
  Here: a window's block at a point read off the array the region finds; each input's staging buffer holds that block
  at every point; what the body leaves in the output buffer; the body's triple; the proof data and the body obligation.
-/
import proofs.«128776_j4466765988635_1_alg».proof.Proof.Gen.Kernel.Launch
import proofs.«128776_j4466765988635_1_alg».proof.Proof.Gen.Kernel.Skeleton
import proofs.«128776_j4466765988635_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The centred matrix's staging buffer holds its (one) block at every point, though it is brought in at the first point only:
    where it is not brought in, its block index has not moved and the body left the block in place. For any proof data over the
    entry contents whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the x window, brought in at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S128x512 := Rect.unit (s := S128x512) ![0, 0] S128x512.size inb_S128x512_S128x512_0_0
abbrev r1_1 : Rect S512x4096 := Rect.unit (s := S512x4096) ![0, 0] S512x4096.size inb_S512x4096_S512x4096_0_0
abbrev r1_2 : Rect S128x4096 := Rect.unit (s := S128x4096) ![0, 0] S128x4096.size inb_S128x4096_S128x4096_0_0

/-! ## What the body leaves in the output window's buffer -/

/-- The output buffer after the body, from the two input blocks: its one store, of the whole buffer, of the product. -/
def out1_2 (x0 : Vec F S128x512 .f32) (x1 : Vec F S512x4096 .f32) : Vec F S128x4096 .f32 :=
  View.canon [⟨r1_2, k1_pay1 (View.ld x0 r1_0) (View.ld x1 r1_1)⟩]

/-- The one store is of the whole buffer, so it covers it. -/
theorem cover1_2 (p0 : Vec F S128x4096 .f32) (y : S128x4096.Idx) :
    ∃ pc ∈ ([⟨r1_2, p0⟩] : List (View.Piece (Elt F) S128x4096 .f32)), y ∈ pc.1.set :=
  View.cover_of_tiled [⟨r1_2, p0⟩] S128x4096.size (by rfl) y

/-! ## The body's triple -/

set_option maxHeartbeats 1000000 in
/-- The kernel body on whole staging memrefs, the inputs' at contents x0, x1 and the output's at anything, runs to the
    continuation holding the inputs' as they were and the output's at the product of the two (out1_2). The read of the
    output buffer before the store changes nothing. -/
theorem sound_kernel1 (c : Dev nD) (E : Set ℕ) (i : grid1.Coords) (arg1 : Memref sig .tc .vmem S128x512 .f32) (harg1 : arg1.IsWhole) (arg2 : Memref sig .tc .vmem S512x4096 .f32) (harg2 : arg2.IsWhole) (arg3 : Memref sig .tc .vmem S128x4096 .f32) (harg3 : arg3.IsWhole)
    (x0 : Vec F S128x512 .f32) (x1 : Vec F S512x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_output_matmul_kernel i arg1 harg1 arg2 harg2 arg3 harg3) K := by
  simp only [cc1_output_matmul_kernel_eq_skeleton]; unfold cc1_output_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region on core c: the arrays as the region finds them; after the body at point t each input's
    buffer at its block and the output's at the product of the two input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, brought in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of @main. The program is two kernel regions back to back: no host operation comes before the first,
  between the two, or after the second. So there are three boundaries and the buffer contents at each are:
    * at launch, the memory the program is started on;
    * between the regions, the launch contents except that region 0's three arrays (Psi, x, and the centred
      product) hold what region 0's pipeline leaves in them: the two inputs are never written, so only the product
      changes;
    * at the return, the contents between the regions except that region 1's three arrays (the product, x, and the
      result) hold what region 1's pipeline leaves in them: again only its output, the result, changes.
  A region may change nothing else that outlives it: the one unscoped buffer that is none of its arrays bypasses it
  (the result for region 0, Psi for region 1), and the scoped buffers and the generator register go into the region's
  invariant and come back at some contents.
  Here: the three boundary contents, each array read back through them, the two regions as segments of one launch,
  the launch itself with the final memory read at every unscoped buffer, and from it the three statements the
  certificate uses (every unscoped buffer; the arguments unchanged; the result together with the arguments).
-/
import proofs.«128776_j4466765988635_1_alg».proof.Proof.K.R0Frame
import proofs.«128776_j4466765988635_1_alg».proof.Proof.K.R1Frame
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- Core c's buffers at launch: the memory the program is started on. -/
abbrev W0 : Dev nD → Valuation τ sig (Elt F) := fun c b => m ((c : Dev nD), b)

/-- Region 0 is entered straight from the launch, so its entry contents are the launch contents, read at the core's
    own references. -/
abbrev V1 : (c : Dev nD) → (b : Ref sig .tc) → Buf (Elt F) ((c : Thread nD τ).loc b) := fun c b => W0 m c b

/-- Between the regions: region 0's arrays at what its pipeline leaves after the last point, every other buffer as
    launched. -/
def W2 (c : Dev nD) : Valuation τ sig (Elt F) :=
  Pipeline.withArrays spec0 c (W0 m c) fun w => (dat0 (V1 m) c).arrAt w cfg0.N

/-- At an array of region 0 the middle contents are the pipeline's. -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w

/-- Away from region 0's arrays the middle contents are the launch contents. -/
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb

/-- Region 1 is entered straight from region 0's exit, so its entry contents are the middle contents. -/
abbrev V2 : (c : Dev nD) → (b : Ref sig .tc) → Buf (Elt F) ((c : Thread nD τ).loc b) := fun c b => W2 m c b

/-- What rejoining region 0's arrays with the bypassing buffer needs: the arrays hold the pipeline's contents, -/
theorem hF0 (c : Dev nD) (w : Fin cfg0.W) : (dat0 (V1 m) c).arrAt w cfg0.N = V2 m c (Pipeline.arrRef spec0 w) :=
  (W2_arr m c w).symm

/-- and everything else what it held on entry. -/
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the return: region 1's arrays at what its pipeline leaves after the last point, every other buffer as it was
    between the regions. -/
def W4 (c : Dev nD) : Valuation τ sig (Elt F) :=
  Pipeline.withArrays spec1 c (W2 m c) fun w => (dat1 (V2 m) c).arrAt w cfg1.N

/-- At an array of region 1 the final contents are the pipeline's. -/
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w

/-- Away from region 1's arrays the final contents are the middle contents. -/
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb

/-- The final contents read at the core's own references. -/
abbrev V4 : (c : Dev nD) → (b : Ref sig .tc) → Buf (Elt F) ((c : Thread nD τ).loc b) := fun c b => W4 m c b

theorem hF1 (c : Dev nD) (w : Fin cfg1.W) : (dat1 (V2 m) c).arrAt w cfg1.N = V4 m c (Pipeline.arrRef spec1 w) :=
  (W4_arr m c w).symm

theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ## Each array read through the boundaries -/

/-- Region 0 finds x as launched, -/
theorem V1_main_arg0 (c : Dev nD) : V1 m c main_arg0 = m ((c : Thread nD τ).loc main_arg0) := rfl

/-- and Psi as launched. -/
theorem V1_main_arg1 (c : Dev nD) : V1 m c main_arg1 = m ((c : Thread nD τ).loc main_arg1) := rfl

/-- Region 1 finds the centred product at what region 0's output window wrote back. -/
theorem V2_main_v0 (c : Dev nD) : V2 m c main_v0 = (dat0 (V1 m) c).arrAt 2 cfg0.N :=
  W2_arr m c 2

/-- Region 1 finds x as launched: x is an input window's array in region 0, and an input's array is never
    written. -/
theorem V2_main_arg0 (c : Dev nD) : V2 m c main_arg0 = m ((c : Thread nD τ).loc main_arg0) :=
  (W2_arr m c 1).trans (((dat0 (V1 m) c).arrAt_in 1 rfl _).trans (A_eq0 (V1 m) c 1))

/-- Psi between the regions is as launched: it is an input window's array in region 0. -/
theorem V2_main_arg1 (c : Dev nD) : V2 m c main_arg1 = m ((c : Thread nD τ).loc main_arg1) :=
  (W2_arr m c 0).trans (((dat0 (V1 m) c).arrAt_in 0 rfl _).trans (A_eq0 (V1 m) c 0))

/-- x at the return is as launched: an input window's array in region 1, and as launched before it. -/
theorem W4_main_arg0 (c : Dev nD) : W4 m c (Proc.devRef .tc main_arg0) = m ((c : Thread nD τ).loc main_arg0) :=
  calc W4 m c (Proc.devRef .tc main_arg0)
    _ = V2 m c main_arg0 := (W4_arr m c 1).trans (((dat1 (V2 m) c).arrAt_in 1 rfl _).trans (A_eq1 (V2 m) c 1))
    _ = m ((c : Thread nD τ).loc main_arg0) := V2_main_arg0 m c

/-- Psi at the return is as launched: region 1 bypasses it, and region 0 only read it. -/
theorem W4_main_arg1 (c : Dev nD) : W4 m c (Proc.devRef .tc main_arg1) = m ((c : Thread nD τ).loc main_arg1) :=
  calc W4 m c (Proc.devRef .tc main_arg1)
    _ = W2 m c (Proc.devRef .tc main_arg1) := W4_of_ne m c main_arg1 (by decide)
    _ = m ((c : Thread nD τ).loc main_arg1) := V2_main_arg1 m c

/-- The result at the return is what region 1's output window wrote back. -/
theorem W4_main_v1 (c : Dev nD) : W4 m c (Proc.devRef .tc main_v1) = (dat1 (V2 m) c).arrAt 2 cfg1.N :=
  W4_arr m c 2

/-! ## The proof data family and what rides beside the buffers -/

/-- Neither pipeline has a prefetched table. -/
abbrev adm : (p : Fin 2) → (pcfgs (F := F) p).Adm := fun p => (cfgs p).toPCfg_adm

/-- Each pipeline's proof data at its region's entry contents: region 0 at the launch contents, region 1 at the
    middle contents. Written as a match on the two numerals so that the family at a numeral reduces to the
    region's own data. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

abbrev 𝒱₀ : Variants := Variants.none
/-- No core owes another anything, so no pair carries a level. -/
abbrev L : GSem nD τ sig → Finset Unit := fun _ => ∅
abbrev lv : GSem nD τ sig → Unit → ℕ := fun _ _ => 0

/-- Beside the unscoped buffers a core carries its generator register at some state and its debt, which is nothing,
    through both regions. -/
abbrev R (c : Dev nD) : sProp 𝕄 := iprop((∃ r, prngReg c r) ∗ ∃ W, owes (c : Thread nD τ) (0 : CellTallies nD τ sig Unit) W)

/-- An unscoped reference of the core is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without the debt: every unscoped buffer at the final contents and the generator register
    at some state. -/
abbrev Tₙ (c : Dev nD) : sProp 𝕄 := iprop(StableHlo.held (c : Thread nD τ) (Pipeline.ucRefs τ sig) (W4 m c) ∗ ∃ r, prngReg c r)

/-! ## The two regions as segments -/

set_option backward.isDefEq.respectTransparency.types false in
/-- Region 0 over the thread state: entered with every unscoped buffer at the launch contents, left with them at the
    middle contents. Its three arrays are split out of the unscoped buffers and the result bypasses; the generator
    register and the scoped buffers make the plain invariant, which is the region's own before the first point; after
    the last point the region's invariant forgets the scratch contents and is the plain one again, which gives the
    register back; the arrays at the pipeline's contents rejoin the result. Nothing is owed and the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the middle contents, left with them at the
    final contents. Its three arrays are split out of the unscoped buffers and Psi bypasses; its invariant is the plain
    one at every point, so the generator register goes in and comes out unchanged in form; the arrays at the
    pipeline's contents rejoin Psi. Nothing is owed and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two segments, and the launch -/

/-- @main's segments in order: region 0, then region 1, and nothing else. -/
abbrev segs : List (Pipeline.Seg (pcfgs (F := F)) adm (pdats m) () defs₀ 𝒱₀ L lv) :=
  [ .region (reg0 m), .region (reg1 m) ]

/-- @main is the run of the two segments: it is the chain of its two calls, and so is the segments' run. -/
theorem main_run (c : Dev nD) : main (F := F) c = Pipeline.Seg.run (segs m) := (main_chain c).trans (by chain_rfl)

set_option backward.isDefEq.respectTransparency.types false in
/-- The run with the final memory read at every unscoped buffer: from any memory with every counter at zero, every
    weakly fair execution of @main on the cores terminates without fault, and in every final state each unscoped
    buffer of each core holds the final contents. The launch deals each core its unscoped buffers at the launch
    contents, its generator register and an empty debt: that is region 0's entry state. Region 0's exit state is
    region 1's entry state word for word, and region 1's exit state is the last thread state beside the empty debt.
    Holding the unscoped buffers at the final contents beside a final state's interpretation says the state's memory
    agrees with those contents there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun _ h => h)

/-- The frame: the run terminates without fault and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m c),
     (h c _ (mem_uc main_arg1 (by decide))).trans (W4_main_arg1 m c)⟩) (run_all m ρ)

/-- The value read: the result array ends at what region 1's output window wrote back, region 1 having been entered
    at the middle contents; and both argument arrays end as launched. -/
theorem run_value : θ_run defs (onTc (τ := τ) (main (F := F))) ⟨m, fun _ => 0, ρ⟩ (fun r => ∀ c : Dev nD,
      r.2.mem ((c.tc : Thread nD τ).loc main_v1) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v1 (by decide))).trans (W4_main_v1 m c),
     (h c _ (mem_uc main_arg0 (by decide))).trans (W4_main_arg0 m c),
     (h c _ (mem_uc main_arg1 (by decide))).trans (W4_main_arg1 m c)⟩) (run_all m ρ)

end Cert.Kernel.Hand

end
-- ==== Proof.KI.R0Base.lean ====
/-
  Region 0 (the centring product): what every later module about it is stated over.
  The region runs the kernel at eight grid points; point t sees columns [4096 t, 4096 (t+1)) of Psi and of x.
  Three scratch buffers are carried from point to point (the running product, the running row sums of Psi, the
  running row sums of x); they are zeroed at point 0, and at point 7 the output block is stored from them.
  Here: a window's block at a point read off the array the region finds, the fact that an input's staging buffer
  holds that block at every point, the two branch conditions in closed form, where the output window is idle,
  and the region's invariant with every scoped buffer spelled out.
-/
import proofs.«128776_j4466765988635_1_alg».proof.Proof.Gen.KernelIdeal.Launch
import proofs.«128776_j4466765988635_1_alg».proof.Proof.Gen.KernelIdeal.Skeleton
import proofs.«128776_j4466765988635_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The Psi window's staging buffer holds its block at every point, for any proof data over the entry contents whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the x window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions -/

/-- "This is the first point": the scratch buffers are zeroed under it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last point": the output block is stored under it. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point nothing is stored into the output window and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called on -/

abbrev VO0_2 : View sig .tc .vmem S128x512 .f32 := (Memref.whole cc0_stg2_0 : Memref sig .tc .vmem S128x512 .f32).view
abbrev ms0_0 (t : Fin cfg0.N) : Memref sig .tc .vmem S128x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .f32 := win0_2.stage (cfg0.slots t 2)
abbrev hs0_2 (t : Fin cfg0.N) : (ms0_2 t).IsWhole := hstage0_2 ((cfg0.slots t 2).cast nbuf0_2)
/-- The three carried scratch buffers: the running product, Psi's running row sums, x's running row sums. -/
abbrev scM0_0 : Memref sig .tc .vmem S128x512 .f32 := Memref.whole cc0_scratch0
abbrev scM0_1 : Memref sig .tc .vmem S128x1 .f32 := Memref.whole cc0_scratch1
abbrev scM0_2 : Memref sig .tc .vmem S512x1 .f32 := Memref.whole cc0_scratch2
abbrev VS0_0 : View sig .tc .vmem S128x512 .f32 := scM0_0.view
abbrev VS0_1 : View sig .tc .vmem S128x1 .f32 := scM0_1.view
abbrev VS0_2 : View sig .tc .vmem S512x1 .f32 := scM0_2.view

/-- The scoped buffers of the core that region 0 never touches (the second region's staging buffers), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's plain invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ others0 (F := F) c) ∗ (∃ r, prngReg c r)) := by
  unfold Pipeline.ΦA others0; rw [scopedRest0_eq]; simp only [scM0_0, scM0_1, scM0_2, owns_whole]; try rfl

end Cert.KernelIdeal.Hand

end
-- ==== Proof.KI.R0RunA.lean ====
/-
  Region 0's kernel body run whole at the first point: the scratch buffers, at anything, are zeroed first; nothing is stored into the output block.
  The run is over the body's skeleton of loads and stores; what each buffer ends with is recorded as the list of pieces
  stored into it, last first, and the pieces are found by the run itself.
-/
import proofs.«128776_j4466765988635_1_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the three scratch buffers at the first point, with the
    proof that on whole memrefs — the two input blocks at their contents — the body runs to the continuation holding the
    inputs as they were and each buffer it stored into with its pieces written. -/
noncomputable def kernelRun0_A (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) :
    Σ' (L2 : List (View.Piece (Elt F) S128x512 .f32)) (LS0 : List (View.Piece (Elt F) S128x512 .f32)) (LS1 : List (View.Piece (Elt F) S128x1 .f32)), { LS2 : List (View.Piece (Elt F) S512x1 .f32) //
      ∀ (xi2 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0_centering_matmul_kernel i arg1 harg1 arg2 harg2 arg3 harg3 arg4 harg4 arg5 harg5 arg6 harg6) K } := by
  refine ⟨[], ?_, ?_, ?_, fun xi2 E K => ?run⟩
  case run =>
    simp only [cc0_centering_matmul_kernel_eq_skeleton]; unfold cc0_centering_matmul_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    iexists _; iexact HS2

end Cert.KernelIdeal.Hand

end
-- ==== Proof.KI.R0RunB.lean ====
/-
  Region 0's kernel body run whole at a middle point: the scratch buffers hold what the point before left; nothing is stored into the output block.
  The run is over the body's skeleton of loads and stores; what each buffer ends with is recorded as the list of pieces
  stored into it, last first, and the pieces are found by the run itself.
-/
import proofs.«128776_j4466765988635_1_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the three scratch buffers at a middle point, with the
    proof that on whole memrefs — the two input blocks at their contents — the body runs to the continuation holding the
    inputs as they were and each buffer it stored into with its pieces written. -/
noncomputable def kernelRun0_B (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) :
    Σ' (L2 : List (View.Piece (Elt F) S128x512 .f32)) (LS0 : List (View.Piece (Elt F) S128x512 .f32)) (LS1 : List (View.Piece (Elt F) S128x1 .f32)), { LS2 : List (View.Piece (Elt F) S512x1 .f32) //
      ∀ (xi2 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1 ∗ owns (c : Thread nD τ) arg6 fullShare xs2
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0_centering_matmul_kernel i arg1 harg1 arg2 harg2 arg3 harg3 arg4 harg4 arg5 harg5 arg6 harg6) K } := by
  refine ⟨[], ?_, ?_, ?_, fun xi2 E K => ?run⟩
  case run =>
    simp only [cc0_centering_matmul_kernel_eq_skeleton]; unfold cc0_centering_matmul_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hfs0; obtain rfl := harg5.eq_unread hfs1; obtain rfl := harg6.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    iexists _; iexact HS2

end Cert.KernelIdeal.Hand

end
-- ==== Proof.KI.R0RunC.lean ====
/-
  Region 0's kernel body run whole at the last point: the scratch buffers hold what the point before left; the output block is stored from them.
  The run is over the body's skeleton of loads and stores; what each buffer ends with is recorded as the list of pieces
  stored into it, last first, and the pieces are found by the run itself.
-/
import proofs.«128776_j4466765988635_1_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the three scratch buffers at the last point, with the
    proof that on whole memrefs — the two input blocks at their contents — the body runs to the continuation holding the
    inputs as they were and each buffer it stored into with its pieces written. -/
noncomputable def kernelRun0_C (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) :
    Σ' (L2 : List (View.Piece (Elt F) S128x512 .f32)) (LS0 : List (View.Piece (Elt F) S128x512 .f32)) (LS1 : List (View.Piece (Elt F) S128x1 .f32)), { LS2 : List (View.Piece (Elt F) S512x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1 ∗ owns (c : Thread nD τ) arg6 fullShare xs2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0_centering_matmul_kernel i arg1 harg1 arg2 harg2 arg3 harg3 arg4 harg4 arg5 harg5 arg6 harg6) K } := by
  refine ⟨?_, ?_, ?_, ?_, fun E K => ?run⟩
  case run =>
    simp only [cc0_centering_matmul_kernel_eq_skeleton]; unfold cc0_centering_matmul_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg4.eq_unread hfs0; obtain rfl := harg5.eq_unread hfs1; obtain rfl := harg6.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    isplitl [HS1]; · iexists _; iexact HS1
    iexists _; iexact HS2

end Cert.KernelIdeal.Hand

end
-- ==== Proof.KI.R0Frame.lean ====
/-
  Region 0, point by point: what the output block and the three carried scratch buffers hold after each of the eight
  grid points, the invariant that carries the scratch buffers from one point to the next, the pipeline's proof data,
  and the body obligation at every point.
  Point 0 is the first case (scratch zeroed, then updated); points 1 to 6 the middle case (scratch updated from what the
  point before left); point 7 the last case (scratch updated, and the output block stored from it).
-/
import proofs.«128776_j4466765988635_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in each buffer -/

/-- What the output block's staging buffer reads as after the body in case A (nothing is stored there: a placeholder nothing consults). -/
def out0_A_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) : Vec F S128x512 .f32 :=
  VO0_2.read (Elt F) (VO0_2.writes (Elt F) VO0_2.junk (kernelRun0_A (F := F) c i arg1 harg1 arg2 harg2 arg3 harg3 arg4 harg4 arg5 harg5 arg6 harg6 hc0 hc1 x0 x1).1)

/-- In case A the stores into scratch buffer 0 tile it. -/
theorem scover0_A_0 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) (y : S128x512.Idx) :
    ∃ pc ∈ (kernelRun0_A (F := F) c i arg1 harg1 arg2 harg2 arg3 harg3 arg4 harg4 arg5 harg5 arg6 harg6 hc0 hc1 x0 x1).2.1, y ∈ pc.1.set :=
  View.cover_of_tiledL (kernelRun0_A (F := F) c i arg1 harg1 arg2 harg2 arg3 harg3 arg4 harg4 arg5 harg5 arg6 harg6 hc0 hc1 x0 x1).2.1 S128x512.size (by sl_kernel_rfl) y

/-- What case A leaves in scratch buffer 0. -/
def sout0_A_0 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) : Vec F S128x512 .f32 :=
  VS0_0.read (Elt F) (VS0_0.writes (Elt F) VS0_0.junk (kernelRun0_A (F := F) c i arg1 harg1 arg2 harg2 arg3 harg3 arg4 harg4 arg5 harg5 arg6 harg6 hc0 hc1 x0 x1).2.1)

/-- In case A the stores into scratch buffer 1 tile it. -/
theorem scover0_A_1 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) (y : S128x1.Idx) :
    ∃ pc ∈ (kernelRun0_A (F := F) c i arg1 harg1 arg2 harg2 arg3 harg3 arg4 harg4 arg5 harg5 arg6 harg6 hc0 hc1 x0 x1).2.2.1, y ∈ pc.1.set :=
  View.cover_of_tiledL (kernelRun0_A (F := F) c i arg1 harg1 arg2 harg2 arg3 harg3 arg4 harg4 arg5 harg5 arg6 harg6 hc0 hc1 x0 x1).2.2.1 S128x1.size (by sl_kernel_rfl) y

/-- What case A leaves in scratch buffer 1. -/
def sout0_A_1 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) : Vec F S128x1 .f32 :=
  VS0_1.read (Elt F) (VS0_1.writes (Elt F) VS0_1.junk (kernelRun0_A (F := F) c i arg1 harg1 arg2 harg2 arg3 harg3 arg4 harg4 arg5 harg5 arg6 harg6 hc0 hc1 x0 x1).2.2.1)

/-- In case A the stores into scratch buffer 2 tile it. -/
theorem scover0_A_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) (y : S512x1.Idx) :
    ∃ pc ∈ (kernelRun0_A (F := F) c i arg1 harg1 arg2 harg2 arg3 harg3 arg4 harg4 arg5 harg5 arg6 harg6 hc0 hc1 x0 x1).2.2.2.1, y ∈ pc.1.set :=
  View.cover_of_tiledL (kernelRun0_A (F := F) c i arg1 harg1 arg2 harg2 arg3 harg3 arg4 harg4 arg5 harg5 arg6 harg6 hc0 hc1 x0 x1).2.2.2.1 S512x1.size (by sl_kernel_rfl) y

/-- What case A leaves in scratch buffer 2. -/
def sout0_A_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) : Vec F S512x1 .f32 :=
  VS0_2.read (Elt F) (VS0_2.writes (Elt F) VS0_2.junk (kernelRun0_A (F := F) c i arg1 harg1 arg2 harg2 arg3 harg3 arg4 harg4 arg5 harg5 arg6 harg6 hc0 hc1 x0 x1).2.2.2.1)

/-- What the output block's staging buffer reads as after the body in case B (nothing is stored there: a placeholder nothing consults). -/
def out0_B_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) : Vec F S128x512 .f32 :=
  VO0_2.read (Elt F) (VO0_2.writes (Elt F) VO0_2.junk (kernelRun0_B (F := F) c i arg1 harg1 arg2 harg2 arg3 harg3 arg4 harg4 arg5 harg5 arg6 harg6 hc0 hc1 x0 x1 xs0 xs1 xs2).1)

/-- In case B the stores into scratch buffer 0 tile it. -/
theorem scover0_B_0 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) (y : S128x512.Idx) :
    ∃ pc ∈ (kernelRun0_B (F := F) c i arg1 harg1 arg2 harg2 arg3 harg3 arg4 harg4 arg5 harg5 arg6 harg6 hc0 hc1 x0 x1 xs0 xs1 xs2).2.1, y ∈ pc.1.set :=
  View.cover_of_tiledL (kernelRun0_B (F := F) c i arg1 harg1 arg2 harg2 arg3 harg3 arg4 harg4 arg5 harg5 arg6 harg6 hc0 hc1 x0 x1 xs0 xs1 xs2).2.1 S128x512.size (by sl_kernel_rfl) y

/-- What case B leaves in scratch buffer 0. -/
def sout0_B_0 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) : Vec F S128x512 .f32 :=
  VS0_0.read (Elt F) (VS0_0.writes (Elt F) VS0_0.junk (kernelRun0_B (F := F) c i arg1 harg1 arg2 harg2 arg3 harg3 arg4 harg4 arg5 harg5 arg6 harg6 hc0 hc1 x0 x1 xs0 xs1 xs2).2.1)

/-- In case B the stores into scratch buffer 1 tile it. -/
theorem scover0_B_1 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) (y : S128x1.Idx) :
    ∃ pc ∈ (kernelRun0_B (F := F) c i arg1 harg1 arg2 harg2 arg3 harg3 arg4 harg4 arg5 harg5 arg6 harg6 hc0 hc1 x0 x1 xs0 xs1 xs2).2.2.1, y ∈ pc.1.set :=
  View.cover_of_tiledL (kernelRun0_B (F := F) c i arg1 harg1 arg2 harg2 arg3 harg3 arg4 harg4 arg5 harg5 arg6 harg6 hc0 hc1 x0 x1 xs0 xs1 xs2).2.2.1 S128x1.size (by sl_kernel_rfl) y

/-- What case B leaves in scratch buffer 1. -/
def sout0_B_1 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) : Vec F S128x1 .f32 :=
  VS0_1.read (Elt F) (VS0_1.writes (Elt F) VS0_1.junk (kernelRun0_B (F := F) c i arg1 harg1 arg2 harg2 arg3 harg3 arg4 harg4 arg5 harg5 arg6 harg6 hc0 hc1 x0 x1 xs0 xs1 xs2).2.2.1)

/-- In case B the stores into scratch buffer 2 tile it. -/
theorem scover0_B_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) (y : S512x1.Idx) :
    ∃ pc ∈ (kernelRun0_B (F := F) c i arg1 harg1 arg2 harg2 arg3 harg3 arg4 harg4 arg5 harg5 arg6 harg6 hc0 hc1 x0 x1 xs0 xs1 xs2).2.2.2.1, y ∈ pc.1.set :=
  View.cover_of_tiledL (kernelRun0_B (F := F) c i arg1 harg1 arg2 harg2 arg3 harg3 arg4 harg4 arg5 harg5 arg6 harg6 hc0 hc1 x0 x1 xs0 xs1 xs2).2.2.2.1 S512x1.size (by sl_kernel_rfl) y

/-- What case B leaves in scratch buffer 2. -/
def sout0_B_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) : Vec F S512x1 .f32 :=
  VS0_2.read (Elt F) (VS0_2.writes (Elt F) VS0_2.junk (kernelRun0_B (F := F) c i arg1 harg1 arg2 harg2 arg3 harg3 arg4 harg4 arg5 harg5 arg6 harg6 hc0 hc1 x0 x1 xs0 xs1 xs2).2.2.2.1)

/-- What the output block's staging buffer reads as after the body in case C. -/
def out0_C_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) : Vec F S128x512 .f32 :=
  VO0_2.read (Elt F) (VO0_2.writes (Elt F) VO0_2.junk (kernelRun0_C (F := F) c i arg1 harg1 arg2 harg2 arg3 harg3 arg4 harg4 arg5 harg5 arg6 harg6 hc0 hc1 x0 x1 xs0 xs1 xs2).1)

/-- In case C the stores into the output block tile it. -/
theorem cover0_C_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) (y : S128x512.Idx) :
    ∃ pc ∈ (kernelRun0_C (F := F) c i arg1 harg1 arg2 harg2 arg3 harg3 arg4 harg4 arg5 harg5 arg6 harg6 hc0 hc1 x0 x1 xs0 xs1 xs2).1, y ∈ pc.1.set :=
  View.cover_of_tiledL (kernelRun0_C (F := F) c i arg1 harg1 arg2 harg2 arg3 harg3 arg4 harg4 arg5 harg5 arg6 harg6 hc0 hc1 x0 x1 xs0 xs1 xs2).1 S128x512.size (by sl_kernel_rfl) y

/-- In case C the stores into scratch buffer 0 tile it. -/
theorem scover0_C_0 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) (y : S128x512.Idx) :
    ∃ pc ∈ (kernelRun0_C (F := F) c i arg1 harg1 arg2 harg2 arg3 harg3 arg4 harg4 arg5 harg5 arg6 harg6 hc0 hc1 x0 x1 xs0 xs1 xs2).2.1, y ∈ pc.1.set :=
  View.cover_of_tiledL (kernelRun0_C (F := F) c i arg1 harg1 arg2 harg2 arg3 harg3 arg4 harg4 arg5 harg5 arg6 harg6 hc0 hc1 x0 x1 xs0 xs1 xs2).2.1 S128x512.size (by sl_kernel_rfl) y

/-- What case C leaves in scratch buffer 0. -/
def sout0_C_0 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) : Vec F S128x512 .f32 :=
  VS0_0.read (Elt F) (VS0_0.writes (Elt F) VS0_0.junk (kernelRun0_C (F := F) c i arg1 harg1 arg2 harg2 arg3 harg3 arg4 harg4 arg5 harg5 arg6 harg6 hc0 hc1 x0 x1 xs0 xs1 xs2).2.1)

/-- In case C the stores into scratch buffer 1 tile it. -/
theorem scover0_C_1 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) (y : S128x1.Idx) :
    ∃ pc ∈ (kernelRun0_C (F := F) c i arg1 harg1 arg2 harg2 arg3 harg3 arg4 harg4 arg5 harg5 arg6 harg6 hc0 hc1 x0 x1 xs0 xs1 xs2).2.2.1, y ∈ pc.1.set :=
  View.cover_of_tiledL (kernelRun0_C (F := F) c i arg1 harg1 arg2 harg2 arg3 harg3 arg4 harg4 arg5 harg5 arg6 harg6 hc0 hc1 x0 x1 xs0 xs1 xs2).2.2.1 S128x1.size (by sl_kernel_rfl) y

/-- What case C leaves in scratch buffer 1. -/
def sout0_C_1 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) : Vec F S128x1 .f32 :=
  VS0_1.read (Elt F) (VS0_1.writes (Elt F) VS0_1.junk (kernelRun0_C (F := F) c i arg1 harg1 arg2 harg2 arg3 harg3 arg4 harg4 arg5 harg5 arg6 harg6 hc0 hc1 x0 x1 xs0 xs1 xs2).2.2.1)

/-- In case C the stores into scratch buffer 2 tile it. -/
theorem scover0_C_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) (y : S512x1.Idx) :
    ∃ pc ∈ (kernelRun0_C (F := F) c i arg1 harg1 arg2 harg2 arg3 harg3 arg4 harg4 arg5 harg5 arg6 harg6 hc0 hc1 x0 x1 xs0 xs1 xs2).2.2.2.1, y ∈ pc.1.set :=
  View.cover_of_tiledL (kernelRun0_C (F := F) c i arg1 harg1 arg2 harg2 arg3 harg3 arg4 harg4 arg5 harg5 arg6 harg6 hc0 hc1 x0 x1 xs0 xs1 xs2).2.2.2.1 S512x1.size (by sl_kernel_rfl) y

/-- What case C leaves in scratch buffer 2. -/
def sout0_C_2 (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) : Vec F S512x1 .f32 :=
  VS0_2.read (Elt F) (VS0_2.writes (Elt F) VS0_2.junk (kernelRun0_C (F := F) c i arg1 harg1 arg2 harg2 arg3 harg3 arg4 harg4 arg5 harg5 arg6 harg6 hc0 hc1 x0 x1 xs0 xs1 xs2).2.2.2.1)

/-! ## What the buffers hold after each point -/

/-- After the body at position n: the output block's buffer, then the three scratch buffers. The case is read off the
    position; a middle or last point's run starts from the scratch contents the point before left. -/
def outsAt0 (c : Dev nD) : (n : ℕ) → n < cfg0.N → Vec F S128x512 .f32 × Vec F S128x512 .f32 × Vec F S128x1 .f32 × Vec F S512x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      False.elim (by have hN : n + 1 < 8 := lt_of_lt_of_eq hn (show cfg0.N = 8 from N_0); omega)
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t), sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (by exfalso; have hN : n + 1 < 8 := lt_of_lt_of_eq hn (show cfg0.N = 8 from N_0); (try dsimp only at h0); omega)

theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch buffers -/

/-- Before position n: at the first point every scoped buffer is at anything; afterwards the three scratch buffers hold
    what the point before left, the other scoped buffers anything, and the generator register some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ others0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2) ∗ others0 (F := F) c) ∗ (∃ r, prngReg c r)) := by
  cases n with
  | zero => exact absurd rfl hz
  | succ n => rfl

/-! ## The pipeline's proof data -/

/-- Region 0's proof data on core c: the arrays as the region finds them; after the body at point t each input's buffer
    at its block and the output's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the position says which case applies; the invariant
    hands the body the scratch buffers at what the point before left (at anything at the first point) and takes them back
    at this point's contents; away from the last point the output block's buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 8 = 7
  · have h0 : ¬t.val % 8 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C_2 sout0_C_0 sout0_C_1 sout0_C_2; (try dsimp only)
    rw [PhiS_castSucc V c t, PhiS_pos V c _ _ hz]
    iintro ⟨⟨⟨HS0, HS1, HS2, Hoth⟩, Hg⟩, Ho, ⟨%d0, H0⟩, ⟨%d1, H1⟩, ⟨%d2, H2⟩⟩
    iapply ((kernelRun0_C c (grid0.coords t) _ _ _ _ _ _ _ _ _ _ _ _ (fun h => h0 ((hcond0_0 t).mp h)) ((hcond0_1 t).mpr h1) (iblk0 V c 0 t) (iblk0 V c 1 t) _ _ _).2.2.2.2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e2, H2⟩, ⟨%es0, HS0⟩, ⟨%es1, HS1⟩, ⟨%es2, HS2⟩⟩
    isplitl [HS0 HS1 HS2 Hoth Hg]
    · isplitl [HS0 HS1 HS2 Hoth]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _)
        isplitl [HS2]
        · unfold owns; iexists _; isplitr
          swap; · iexact HS2
          ipureintro; exact View.read_writes_of_cover _ _ _ _ _ (scover0_C_2 c _ _ _ _ _ _ _ _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C_2 c _ _ _ _ _ _ _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 8 = 0
    · have hz : t.val = 0 := by omega
      rw [outsAt0_A V c t h0 h1]
      unfold sout0_A_0 sout0_A_1 sout0_A_2; (try dsimp only)
      rw [PhiS_castSucc V c t, PhiS_zero V c _ _ hz, PhiA0_eq]
      iintro ⟨⟨⟨HS0, HS1, HS2, Hoth⟩, Hg⟩, Ho, ⟨%d0, H0⟩, ⟨%d1, H1⟩, ⟨%d2, H2⟩⟩
      iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hoth Hg]
      · isplitl [HS0 HS1 HS2 Hoth]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _)
          iexact Hoth
        iexact Hg
      isplitl [Ho]; · iexact Ho
      isplitl [H0]; · iexact H0
      isplitl [H1]; · iexact H1
      iexists _; iexact H2
    · have hz : t.val ≠ 0 := by omega
      rw [outsAt0_B V c t h0 h1]
      unfold sout0_B_0 sout0_B_1 sout0_B_2; (try dsimp only)
      rw [PhiS_castSucc V c t, PhiS_pos V c _ _ hz]
      iintro ⟨⟨⟨HS0, HS1, HS2, Hoth⟩, Hg⟩, Ho, ⟨%d0, H0⟩, ⟨%d1, H1⟩, ⟨%d2, H2⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hoth Hg]
      · isplitl [HS0 HS1 HS2 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the plain one back: the scratch contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, Hoth⟩, Hg⟩
  isplitl [HS0 HS1 HS2 Hoth]
  · isplitl [HS0]; · iexists _; iexact HS0
    isplitl [HS1]; · iexists _; iexact HS1
    isplitl [HS2]; · iexists _; iexact HS2
    iexact Hoth
  iexact Hg

theorem hout0 (c : Dev nD) : (dat0 V c).Φ (Fin.last cfg0.N) ⊢ Pipeline.ΦA spec0 c :=
  Phi_out0 V c _ (by rw [Fin.val_last]; have : cfg0.N = 8 := N_0; omega)

end Cert.KernelIdeal.Hand

end
-- ==== Proof.KI.R1Frame.lean ====
/-
  Region 1 (the output product), its frame half, at the contents V the region finds.
  The region runs the kernel at eight grid points. The centred matrix (128 x 512) is one block, brought in once at the
  first point and kept; point t sees columns [4096 t, 4096 (t+1)) of x (512 x 4096) and writes the same columns of the
  result (128 x 4096), every point writing its block back. The body reads the two input blocks, reads the output buffer
  (the value is not used) and overwrites the whole output buffer with the product of the two blocks.
  Here: a window's block at a point read off the array the region finds; each input's staging buffer holds that block
  at every point; what the body leaves in the output buffer; the body's triple; the proof data and the body obligation.
-/
import proofs.«128776_j4466765988635_1_alg».proof.Proof.Gen.KernelIdeal.Launch
import proofs.«128776_j4466765988635_1_alg».proof.Proof.Gen.KernelIdeal.Skeleton
import proofs.«128776_j4466765988635_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The centred matrix's staging buffer holds its (one) block at every point, though it is brought in at the first point only:
    where it is not brought in, its block index has not moved and the body left the block in place. For any proof data over the
    entry contents whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the x window, brought in at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S128x512 := Rect.unit (s := S128x512) ![0, 0] S128x512.size inb_S128x512_S128x512_0_0
abbrev r1_1 : Rect S512x4096 := Rect.unit (s := S512x4096) ![0, 0] S512x4096.size inb_S512x4096_S512x4096_0_0
abbrev r1_2 : Rect S128x4096 := Rect.unit (s := S128x4096) ![0, 0] S128x4096.size inb_S128x4096_S128x4096_0_0

/-! ## What the body leaves in the output window's buffer -/

/-- The output buffer after the body, from the two input blocks: its one store, of the whole buffer, of the product. -/
def out1_2 (x0 : Vec F S128x512 .f32) (x1 : Vec F S512x4096 .f32) : Vec F S128x4096 .f32 :=
  View.canon [⟨r1_2, k1_pay1 (View.ld x0 r1_0) (View.ld x1 r1_1)⟩]

/-- The one store is of the whole buffer, so it covers it. -/
theorem cover1_2 (p0 : Vec F S128x4096 .f32) (y : S128x4096.Idx) :
    ∃ pc ∈ ([⟨r1_2, p0⟩] : List (View.Piece (Elt F) S128x4096 .f32)), y ∈ pc.1.set :=
  View.cover_of_tiled [⟨r1_2, p0⟩] S128x4096.size (by rfl) y

/-! ## The body's triple -/

set_option maxHeartbeats 1000000 in
/-- The kernel body on whole staging memrefs, the inputs' at contents x0, x1 and the output's at anything, runs to the
    continuation holding the inputs' as they were and the output's at the product of the two (out1_2). The read of the
    output buffer before the store changes nothing. -/
theorem sound_kernel1 (c : Dev nD) (E : Set ℕ) (i : grid1.Coords) (arg1 : Memref sig .tc .vmem S128x512 .f32) (harg1 : arg1.IsWhole) (arg2 : Memref sig .tc .vmem S512x4096 .f32) (harg2 : arg2.IsWhole) (arg3 : Memref sig .tc .vmem S128x4096 .f32) (harg3 : arg3.IsWhole)
    (x0 : Vec F S128x512 .f32) (x1 : Vec F S512x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_output_matmul_kernel i arg1 harg1 arg2 harg2 arg3 harg3) K := by
  simp only [cc1_output_matmul_kernel_eq_skeleton]; unfold cc1_output_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region on core c: the arrays as the region finds them; after the body at point t each input's
    buffer at its block and the output's at the product of the two input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, brought in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of @main. The program is two kernel regions back to back: no host operation comes before the first,
  between the two, or after the second. So there are three boundaries and the buffer contents at each are:
    * at launch, the memory the program is started on;
    * between the regions, the launch contents except that region 0's three arrays (Psi, x, and the centred
      product) hold what region 0's pipeline leaves in them: the two inputs are never written, so only the product
      changes;
    * at the return, the contents between the regions except that region 1's three arrays (the product, x, and the
      result) hold what region 1's pipeline leaves in them: again only its output, the result, changes.
  A region may change nothing else that outlives it: the one unscoped buffer that is none of its arrays bypasses it
  (the result for region 0, Psi for region 1), and the scoped buffers and the generator register go into the region's
  invariant and come back at some contents.
  Here: the three boundary contents, each array read back through them, the two regions as segments of one launch,
  the launch itself with the final memory read at every unscoped buffer, and from it the three statements the
  certificate uses (every unscoped buffer; the arguments unchanged; the result together with the arguments).
-/
import proofs.«128776_j4466765988635_1_alg».proof.Proof.KI.R0Frame
import proofs.«128776_j4466765988635_1_alg».proof.Proof.KI.R1Frame
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- Core c's buffers at launch: the memory the program is started on. -/
abbrev W0 : Dev nD → Valuation τ sig (Elt F) := fun c b => m ((c : Dev nD), b)

/-- Region 0 is entered straight from the launch, so its entry contents are the launch contents, read at the core's
    own references. -/
abbrev V1 : (c : Dev nD) → (b : Ref sig .tc) → Buf (Elt F) ((c : Thread nD τ).loc b) := fun c b => W0 m c b

/-- Between the regions: region 0's arrays at what its pipeline leaves after the last point, every other buffer as
    launched. -/
def W2 (c : Dev nD) : Valuation τ sig (Elt F) :=
  Pipeline.withArrays spec0 c (W0 m c) fun w => (dat0 (V1 m) c).arrAt w cfg0.N

/-- At an array of region 0 the middle contents are the pipeline's. -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w

/-- Away from region 0's arrays the middle contents are the launch contents. -/
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb

/-- Region 1 is entered straight from region 0's exit, so its entry contents are the middle contents. -/
abbrev V2 : (c : Dev nD) → (b : Ref sig .tc) → Buf (Elt F) ((c : Thread nD τ).loc b) := fun c b => W2 m c b

/-- What rejoining region 0's arrays with the bypassing buffer needs: the arrays hold the pipeline's contents, -/
theorem hF0 (c : Dev nD) (w : Fin cfg0.W) : (dat0 (V1 m) c).arrAt w cfg0.N = V2 m c (Pipeline.arrRef spec0 w) :=
  (W2_arr m c w).symm

/-- and everything else what it held on entry. -/
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the return: region 1's arrays at what its pipeline leaves after the last point, every other buffer as it was
    between the regions. -/
def W4 (c : Dev nD) : Valuation τ sig (Elt F) :=
  Pipeline.withArrays spec1 c (W2 m c) fun w => (dat1 (V2 m) c).arrAt w cfg1.N

/-- At an array of region 1 the final contents are the pipeline's. -/
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w

/-- Away from region 1's arrays the final contents are the middle contents. -/
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb

/-- The final contents read at the core's own references. -/
abbrev V4 : (c : Dev nD) → (b : Ref sig .tc) → Buf (Elt F) ((c : Thread nD τ).loc b) := fun c b => W4 m c b

theorem hF1 (c : Dev nD) (w : Fin cfg1.W) : (dat1 (V2 m) c).arrAt w cfg1.N = V4 m c (Pipeline.arrRef spec1 w) :=
  (W4_arr m c w).symm

theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ## Each array read through the boundaries -/

/-- Region 0 finds x as launched, -/
theorem V1_main_arg0 (c : Dev nD) : V1 m c main_arg0 = m ((c : Thread nD τ).loc main_arg0) := rfl

/-- and Psi as launched. -/
theorem V1_main_arg1 (c : Dev nD) : V1 m c main_arg1 = m ((c : Thread nD τ).loc main_arg1) := rfl

/-- Region 1 finds the centred product at what region 0's output window wrote back. -/
theorem V2_main_v0 (c : Dev nD) : V2 m c main_v0 = (dat0 (V1 m) c).arrAt 2 cfg0.N :=
  W2_arr m c 2

/-- Region 1 finds x as launched: x is an input window's array in region 0, and an input's array is never
    written. -/
theorem V2_main_arg0 (c : Dev nD) : V2 m c main_arg0 = m ((c : Thread nD τ).loc main_arg0) :=
  (W2_arr m c 1).trans (((dat0 (V1 m) c).arrAt_in 1 rfl _).trans (A_eq0 (V1 m) c 1))

/-- Psi between the regions is as launched: it is an input window's array in region 0. -/
theorem V2_main_arg1 (c : Dev nD) : V2 m c main_arg1 = m ((c : Thread nD τ).loc main_arg1) :=
  (W2_arr m c 0).trans (((dat0 (V1 m) c).arrAt_in 0 rfl _).trans (A_eq0 (V1 m) c 0))

/-- x at the return is as launched: an input window's array in region 1, and as launched before it. -/
theorem W4_main_arg0 (c : Dev nD) : W4 m c (Proc.devRef .tc main_arg0) = m ((c : Thread nD τ).loc main_arg0) :=
  calc W4 m c (Proc.devRef .tc main_arg0)
    _ = V2 m c main_arg0 := (W4_arr m c 1).trans (((dat1 (V2 m) c).arrAt_in 1 rfl _).trans (A_eq1 (V2 m) c 1))
    _ = m ((c : Thread nD τ).loc main_arg0) := V2_main_arg0 m c

/-- Psi at the return is as launched: region 1 bypasses it, and region 0 only read it. -/
theorem W4_main_arg1 (c : Dev nD) : W4 m c (Proc.devRef .tc main_arg1) = m ((c : Thread nD τ).loc main_arg1) :=
  calc W4 m c (Proc.devRef .tc main_arg1)
    _ = W2 m c (Proc.devRef .tc main_arg1) := W4_of_ne m c main_arg1 (by decide)
    _ = m ((c : Thread nD τ).loc main_arg1) := V2_main_arg1 m c

/-- The result at the return is what region 1's output window wrote back. -/
theorem W4_main_v1 (c : Dev nD) : W4 m c (Proc.devRef .tc main_v1) = (dat1 (V2 m) c).arrAt 2 cfg1.N :=
  W4_arr m c 2

/-! ## The proof data family and what rides beside the buffers -/

/-- Neither pipeline has a prefetched table. -/
abbrev adm : (p : Fin 2) → (pcfgs (F := F) p).Adm := fun p => (cfgs p).toPCfg_adm

/-- Each pipeline's proof data at its region's entry contents: region 0 at the launch contents, region 1 at the
    middle contents. Written as a match on the two numerals so that the family at a numeral reduces to the
    region's own data. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

abbrev 𝒱₀ : Variants := Variants.none
/-- No core owes another anything, so no pair carries a level. -/
abbrev L : GSem nD τ sig → Finset Unit := fun _ => ∅
abbrev lv : GSem nD τ sig → Unit → ℕ := fun _ _ => 0

/-- Beside the unscoped buffers a core carries its generator register at some state and its debt, which is nothing,
    through both regions. -/
abbrev R (c : Dev nD) : sProp 𝕄 := iprop((∃ r, prngReg c r) ∗ ∃ W, owes (c : Thread nD τ) (0 : CellTallies nD τ sig Unit) W)

/-- An unscoped reference of the core is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without the debt: every unscoped buffer at the final contents and the generator register
    at some state. -/
abbrev Tₙ (c : Dev nD) : sProp 𝕄 := iprop(StableHlo.held (c : Thread nD τ) (Pipeline.ucRefs τ sig) (W4 m c) ∗ ∃ r, prngReg c r)

/-! ## The two regions as segments -/

set_option backward.isDefEq.respectTransparency.types false in
/-- Region 0 over the thread state: entered with every unscoped buffer at the launch contents, left with them at the
    middle contents. Its three arrays are split out of the unscoped buffers and the result bypasses; the generator
    register and the scoped buffers make the plain invariant, which is the region's own before the first point; after
    the last point the region's invariant forgets the scratch contents and is the plain one again, which gives the
    register back; the arrays at the pipeline's contents rejoin the result. Nothing is owed and the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the middle contents, left with them at the
    final contents. Its three arrays are split out of the unscoped buffers and Psi bypasses; its invariant is the plain
    one at every point, so the generator register goes in and comes out unchanged in form; the arrays at the
    pipeline's contents rejoin Psi. Nothing is owed and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two segments, and the launch -/

/-- @main's segments in order: region 0, then region 1, and nothing else. -/
abbrev segs : List (Pipeline.Seg (pcfgs (F := F)) adm (pdats m) () defs₀ 𝒱₀ L lv) :=
  [ .region (reg0 m), .region (reg1 m) ]

/-- @main is the run of the two segments: it is the chain of its two calls, and so is the segments' run. -/
theorem main_run (c : Dev nD) : main (F := F) c = Pipeline.Seg.run (segs m) := (main_chain c).trans (by chain_rfl)

set_option backward.isDefEq.respectTransparency.types false in
/-- The run with the final memory read at every unscoped buffer: from any memory with every counter at zero, every
    weakly fair execution of @main on the cores terminates without fault, and in every final state each unscoped
    buffer of each core holds the final contents. The launch deals each core its unscoped buffers at the launch
    contents, its generator register and an empty debt: that is region 0's entry state. Region 0's exit state is
    region 1's entry state word for word, and region 1's exit state is the last thread state beside the empty debt.
    Holding the unscoped buffers at the final contents beside a final state's interpretation says the state's memory
    agrees with those contents there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun _ h => h)

/-- The frame: the run terminates without fault and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m c),
     (h c _ (mem_uc main_arg1 (by decide))).trans (W4_main_arg1 m c)⟩) (run_all m ρ)

/-- The value read: the result array ends at what region 1's output window wrote back, region 1 having been entered
    at the middle contents; and both argument arrays end as launched. -/
theorem run_value : θ_run defs (onTc (τ := τ) (main (F := F))) ⟨m, fun _ => 0, ρ⟩ (fun r => ∀ c : Dev nD,
      r.2.mem ((c.tc : Thread nD τ).loc main_v1) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v1 (by decide))).trans (W4_main_v1 m c),
     (h c _ (mem_uc main_arg0 (by decide))).trans (W4_main_arg0 m c),
     (h c _ (mem_uc main_arg1 (by decide))).trans (W4_main_arg1 m c)⟩) (run_all m ρ)

end Cert.KernelIdeal.Hand

end
-- ==== Proof.KI.R0Pieces.lean ====
/-
  Region 0: what each case's stores leave, named. Each scratch buffer ends every point with one whole-buffer store
  last, so what it holds is that store's value: the product update, Psi's row-sum update, x's row-sum update — over
  the zero fill at the first point, over what the point before left afterwards. At the last point the output block
  holds the final value computed from the three updated scratch buffers.
-/
import proofs.«128776_j4466765988635_1_alg».proof.Proof.KI.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## The first point: over the zero fill -/

theorem sout0_A_0_eq (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) :
    sout0_A_0 (F := F) c i arg1 harg1 arg2 harg2 arg3 harg3 arg4 harg4 arg5 harg5 arg6 harg6 hc0 hc1 x0 x1 = k0_pay6 x0 x1 (k0_pay1 (F := F)) := by
  unfold sout0_A_0
  rw [View.read_writes_eq_canon _ _ _ (scover0_A_0 c i arg1 harg1 arg2 harg2 arg3 harg3 arg4 harg4 arg5 harg5 arg6 harg6 hc0 hc1 x0 x1)]
  unfold kernelRun0_A
  dsimp only
  sl_unfold_words
  rw [View.canon_cons_unit_zero (S := S128x512) hz2]
  simp only [View.readAt_eq_ld, harg1.read_unread, harg2.read_unread, harg4.read_unread, harg5.read_unread, harg6.read_unread,
    View.ld_unit_zero (S := S128x4096) hz2, View.ld_unit_zero (S := S512x4096) hz2, View.ld_unit_zero (S := S128x512) hz2,
    View.ld_unit_zero (S := S128x1) hz2, View.ld_unit_zero (S := S512x1) hz2,
    View.readCov_unit_zero (S := S128x512) _ hz2, View.readCov_unit_zero (S := S128x1) _ hz2, View.readCov_unit_zero (S := S512x1) _ hz2]

theorem sout0_A_1_eq (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) :
    sout0_A_1 (F := F) c i arg1 harg1 arg2 harg2 arg3 harg3 arg4 harg4 arg5 harg5 arg6 harg6 hc0 hc1 x0 x1 = k0_pay4 x0 (k0_pay2 (F := F)) := by
  unfold sout0_A_1
  rw [View.read_writes_eq_canon _ _ _ (scover0_A_1 c i arg1 harg1 arg2 harg2 arg3 harg3 arg4 harg4 arg5 harg5 arg6 harg6 hc0 hc1 x0 x1)]
  unfold kernelRun0_A
  dsimp only
  sl_unfold_words
  rw [View.canon_cons_unit_zero (S := S128x1) hz2]
  simp only [View.readAt_eq_ld, harg1.read_unread, harg2.read_unread, harg4.read_unread, harg5.read_unread, harg6.read_unread,
    View.ld_unit_zero (S := S128x4096) hz2, View.ld_unit_zero (S := S512x4096) hz2, View.ld_unit_zero (S := S128x512) hz2,
    View.ld_unit_zero (S := S128x1) hz2, View.ld_unit_zero (S := S512x1) hz2,
    View.readCov_unit_zero (S := S128x512) _ hz2, View.readCov_unit_zero (S := S128x1) _ hz2, View.readCov_unit_zero (S := S512x1) _ hz2]

theorem sout0_A_2_eq (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : cond0_0 i) (hc1 : ¬cond0_1 i)
    (x0 : Vec F S128x4096 .f32) (x1 : Vec F S512x4096 .f32) :
    sout0_A_2 (F := F) c i arg1 harg1 arg2 harg2 arg3 harg3 arg4 harg4 arg5 harg5 arg6 harg6 hc0 hc1 x0 x1 = k0_pay5 x1 (k0_pay3 (F := F)) := by
  unfold sout0_A_2
  rw [View.read_writes_eq_canon _ _ _ (scover0_A_2 c i arg1 harg1 arg2 harg2 arg3 harg3 arg4 harg4 arg5 harg5 arg6 harg6 hc0 hc1 x0 x1)]
  unfold kernelRun0_A
  dsimp only
  sl_unfold_words
  rw [View.canon_cons_unit_zero (S := S512x1) hz2]
  simp only [View.readAt_eq_ld, harg1.read_unread, harg2.read_unread, harg4.read_unread, harg5.read_unread, harg6.read_unread,
    View.ld_unit_zero (S := S128x4096) hz2, View.ld_unit_zero (S := S512x4096) hz2, View.ld_unit_zero (S := S128x512) hz2,
    View.ld_unit_zero (S := S128x1) hz2, View.ld_unit_zero (S := S512x1) hz2,
    View.readCov_unit_zero (S := S128x512) _ hz2, View.readCov_unit_zero (S := S128x1) _ hz2, View.readCov_unit_zero (S := S512x1) _ hz2]

/-! ## A middle point: over what the point before left -/

theorem sout0_B_0_eq (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) :
    sout0_B_0 (F := F) c i arg1 harg1 arg2 harg2 arg3 harg3 arg4 harg4 arg5 harg5 arg6 harg6 hc0 hc1 x0 x1 xs0 xs1 xs2 = k0_pay6 x0 x1 xs0 := by
  unfold sout0_B_0
  rw [View.read_writes_eq_canon _ _ _ (scover0_B_0 c i arg1 harg1 arg2 harg2 arg3 harg3 arg4 harg4 arg5 harg5 arg6 harg6 hc0 hc1 x0 x1 xs0 xs1 xs2)]
  unfold kernelRun0_B
  dsimp only
  sl_unfold_words
  rw [View.canon_cons_unit_zero (S := S128x512) hz2]
  simp only [View.readAt_eq_ld, harg1.read_unread, harg2.read_unread, harg4.read_unread, harg5.read_unread, harg6.read_unread,
    View.ld_unit_zero (S := S128x4096) hz2, View.ld_unit_zero (S := S512x4096) hz2, View.ld_unit_zero (S := S128x512) hz2,
    View.ld_unit_zero (S := S128x1) hz2, View.ld_unit_zero (S := S512x1) hz2,
    View.readCov_unit_zero (S := S128x512) _ hz2, View.readCov_unit_zero (S := S128x1) _ hz2, View.readCov_unit_zero (S := S512x1) _ hz2]

theorem sout0_B_1_eq (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) :
    sout0_B_1 (F := F) c i arg1 harg1 arg2 harg2 arg3 harg3 arg4 harg4 arg5 harg5 arg6 harg6 hc0 hc1 x0 x1 xs0 xs1 xs2 = k0_pay4 x0 xs1 := by
  unfold sout0_B_1
  rw [View.read_writes_eq_canon _ _ _ (scover0_B_1 c i arg1 harg1 arg2 harg2 arg3 harg3 arg4 harg4 arg5 harg5 arg6 harg6 hc0 hc1 x0 x1 xs0 xs1 xs2)]
  unfold kernelRun0_B
  dsimp only
  sl_unfold_words
  rw [View.canon_cons_unit_zero (S := S128x1) hz2]
  simp only [View.readAt_eq_ld, harg1.read_unread, harg2.read_unread, harg4.read_unread, harg5.read_unread, harg6.read_unread,
    View.ld_unit_zero (S := S128x4096) hz2, View.ld_unit_zero (S := S512x4096) hz2, View.ld_unit_zero (S := S128x512) hz2,
    View.ld_unit_zero (S := S128x1) hz2, View.ld_unit_zero (S := S512x1) hz2,
    View.readCov_unit_zero (S := S128x512) _ hz2, View.readCov_unit_zero (S := S128x1) _ hz2, View.readCov_unit_zero (S := S512x1) _ hz2]

theorem sout0_B_2_eq (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : ¬cond0_1 i)
    (x0 : Vec F S128x4096 .f32) (x1 : Vec F S512x4096 .f32) (xs0 : Vec F S128x512 .f32) (xs1 : Vec F S128x1 .f32) (xs2 : Vec F S512x1 .f32) :
    sout0_B_2 (F := F) c i arg1 harg1 arg2 harg2 arg3 harg3 arg4 harg4 arg5 harg5 arg6 harg6 hc0 hc1 x0 x1 xs0 xs1 xs2 = k0_pay5 x1 xs2 := by
  unfold sout0_B_2
  rw [View.read_writes_eq_canon _ _ _ (scover0_B_2 c i arg1 harg1 arg2 harg2 arg3 harg3 arg4 harg4 arg5 harg5 arg6 harg6 hc0 hc1 x0 x1 xs0 xs1 xs2)]
  unfold kernelRun0_B
  dsimp only
  sl_unfold_words
  rw [View.canon_cons_unit_zero (S := S512x1) hz2]
  simp only [View.readAt_eq_ld, harg1.read_unread, harg2.read_unread, harg4.read_unread, harg5.read_unread, harg6.read_unread,
    View.ld_unit_zero (S := S128x4096) hz2, View.ld_unit_zero (S := S512x4096) hz2, View.ld_unit_zero (S := S128x512) hz2,
    View.ld_unit_zero (S := S128x1) hz2, View.ld_unit_zero (S := S512x1) hz2,
    View.readCov_unit_zero (S := S128x512) _ hz2, View.readCov_unit_zero (S := S128x1) _ hz2, View.readCov_unit_zero (S := S512x1) _ hz2]

/-! ## The last point: the same updates, and the output block from them -/

theorem sout0_C_0_eq (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) :
    sout0_C_0 (F := F) c i arg1 harg1 arg2 harg2 arg3 harg3 arg4 harg4 arg5 harg5 arg6 harg6 hc0 hc1 x0 x1 xs0 xs1 xs2 = k0_pay6 x0 x1 xs0 := by
  unfold sout0_C_0
  rw [View.read_writes_eq_canon _ _ _ (scover0_C_0 c i arg1 harg1 arg2 harg2 arg3 harg3 arg4 harg4 arg5 harg5 arg6 harg6 hc0 hc1 x0 x1 xs0 xs1 xs2)]
  unfold kernelRun0_C
  dsimp only
  sl_unfold_words
  rw [View.canon_cons_unit_zero (S := S128x512) hz2]
  simp only [View.readAt_eq_ld, harg1.read_unread, harg2.read_unread, harg4.read_unread, harg5.read_unread, harg6.read_unread,
    View.ld_unit_zero (S := S128x4096) hz2, View.ld_unit_zero (S := S512x4096) hz2, View.ld_unit_zero (S := S128x512) hz2,
    View.ld_unit_zero (S := S128x1) hz2, View.ld_unit_zero (S := S512x1) hz2,
    View.readCov_unit_zero (S := S128x512) _ hz2, View.readCov_unit_zero (S := S128x1) _ hz2, View.readCov_unit_zero (S := S512x1) _ hz2]

theorem sout0_C_1_eq (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) :
    sout0_C_1 (F := F) c i arg1 harg1 arg2 harg2 arg3 harg3 arg4 harg4 arg5 harg5 arg6 harg6 hc0 hc1 x0 x1 xs0 xs1 xs2 = k0_pay4 x0 xs1 := by
  unfold sout0_C_1
  rw [View.read_writes_eq_canon _ _ _ (scover0_C_1 c i arg1 harg1 arg2 harg2 arg3 harg3 arg4 harg4 arg5 harg5 arg6 harg6 hc0 hc1 x0 x1 xs0 xs1 xs2)]
  unfold kernelRun0_C
  dsimp only
  sl_unfold_words
  rw [View.canon_cons_unit_zero (S := S128x1) hz2]
  simp only [View.readAt_eq_ld, harg1.read_unread, harg2.read_unread, harg4.read_unread, harg5.read_unread, harg6.read_unread,
    View.ld_unit_zero (S := S128x4096) hz2, View.ld_unit_zero (S := S512x4096) hz2, View.ld_unit_zero (S := S128x512) hz2,
    View.ld_unit_zero (S := S128x1) hz2, View.ld_unit_zero (S := S512x1) hz2,
    View.readCov_unit_zero (S := S128x512) _ hz2, View.readCov_unit_zero (S := S128x1) _ hz2, View.readCov_unit_zero (S := S512x1) _ hz2]

theorem sout0_C_2_eq (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) :
    sout0_C_2 (F := F) c i arg1 harg1 arg2 harg2 arg3 harg3 arg4 harg4 arg5 harg5 arg6 harg6 hc0 hc1 x0 x1 xs0 xs1 xs2 = k0_pay5 x1 xs2 := by
  unfold sout0_C_2
  rw [View.read_writes_eq_canon _ _ _ (scover0_C_2 c i arg1 harg1 arg2 harg2 arg3 harg3 arg4 harg4 arg5 harg5 arg6 harg6 hc0 hc1 x0 x1 xs0 xs1 xs2)]
  unfold kernelRun0_C
  dsimp only
  sl_unfold_words
  rw [View.canon_cons_unit_zero (S := S512x1) hz2]
  simp only [View.readAt_eq_ld, harg1.read_unread, harg2.read_unread, harg4.read_unread, harg5.read_unread, harg6.read_unread,
    View.ld_unit_zero (S := S128x4096) hz2, View.ld_unit_zero (S := S512x4096) hz2, View.ld_unit_zero (S := S128x512) hz2,
    View.ld_unit_zero (S := S128x1) hz2, View.ld_unit_zero (S := S512x1) hz2,
    View.readCov_unit_zero (S := S128x512) _ hz2, View.readCov_unit_zero (S := S128x1) _ hz2, View.readCov_unit_zero (S := S512x1) _ hz2]

theorem out0_C_2_eq (c : Dev nD) (i : grid0.Coords) (arg1 : Memref sig .tc .vmem S128x4096 .f32) (harg1 : arg1.IsWhole) (arg2 : Memref sig .tc .vmem S512x4096 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x1 .f32) (harg5 : arg5.IsWhole) (arg6 : Memref sig .tc .vmem S512x1 .f32) (harg6 : arg6.IsWhole) (hc0 : ¬cond0_0 i) (hc1 : cond0_1 i)
    (x0 : Vec F S128x4096 .f32) (x1 : Vec F S512x4096 .f32) (xs0 : Vec F S128x512 .f32) (xs1 : Vec F S128x1 .f32) (xs2 : Vec F S512x1 .f32) :
    out0_C_2 (F := F) c i arg1 harg1 arg2 harg2 arg3 harg3 arg4 harg4 arg5 harg5 arg6 harg6 hc0 hc1 x0 x1 xs0 xs1 xs2 = k0_pay7 (k0_pay4 x0 xs1) (k0_pay5 x1 xs2) (k0_pay6 x0 x1 xs0) := by
  unfold out0_C_2
  rw [View.read_writes_eq_canon _ _ _ (cover0_C_2 c i arg1 harg1 arg2 harg2 arg3 harg3 arg4 harg4 arg5 harg5 arg6 harg6 hc0 hc1 x0 x1 xs0 xs1 xs2)]
  unfold kernelRun0_C
  dsimp only
  sl_unfold_words
  rw [View.canon_cons_unit_zero (S := S128x512) hz2]
  simp only [View.readAt_eq_ld, harg1.read_unread, harg2.read_unread, harg4.read_unread, harg5.read_unread, harg6.read_unread,
    View.ld_unit_zero (S := S128x4096) hz2, View.ld_unit_zero (S := S512x4096) hz2, View.ld_unit_zero (S := S128x512) hz2,
    View.ld_unit_zero (S := S128x1) hz2, View.ld_unit_zero (S := S512x1) hz2,
    View.readCov_unit_zero (S := S128x512) _ hz2, View.readCov_unit_zero (S := S128x1) _ hz2, View.readCov_unit_zero (S := S512x1) _ hz2]

end Cert.KernelIdeal.Hand

end
-- ==== Proof.KI.R0Steps.lean ====
/-
  Region 0's recurrences, point by point. After the first point each scratch buffer holds its update over the zero fill;
  after a later point, its update over what the point before left: the running product gains the block's product, the
  two running row sums gain the block's row sums. After the last point the output block holds the final value computed
  from the three scratch buffers as that point leaves them.
-/
import proofs.«128776_j4466765988635_1_alg».proof.Proof.KI.R0Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Point t's block of Psi and of x, at their literal types. -/
abbrev pblk (c : Dev nD) (t : Fin cfg0.N) : Vec F S128x4096 .f32 := iblk0 V c 0 t
abbrev xblk (c : Dev nD) (t : Fin cfg0.N) : Vec F S512x4096 .f32 := iblk0 V c 1 t

/-- Scratch buffer 0 after the first point. -/
theorem s0_first (c : Dev nD) (t : Fin cfg0.N) (ht : t.val = 0) :
    (outsAt0 V c t.val t.isLt).2.1 = k0_pay6 (pblk V c t) (xblk V c t) (k0_pay1 (F := F)) := by
  have hN : t.val < 8 := lt_of_lt_of_eq t.isLt (show cfg0.N = 8 from N_0)
  have h0 : t.val % 8 = 0 := by omega
  have h1 : ¬t.val % 8 = 7 := by omega
  rw [outsAt0_A V c t h0 h1]
  dsimp only
  exact sout0_A_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)

/-- Scratch buffer 0 after a later point, over what the point before left. -/
theorem s0_step (c : Dev nD) (t : Fin cfg0.N) (ht : t.val ≠ 0) :
    (outsAt0 V c t.val t.isLt).2.1 = k0_pay6 (pblk V c t) (xblk V c t) (outsAt0 V c (t.val - 1) (Nat.lt_of_le_of_lt (Nat.sub_le _ _) t.isLt)).2.1 := by
  have hN : t.val < 8 := lt_of_lt_of_eq t.isLt (show cfg0.N = 8 from N_0)
  have h0 : ¬t.val % 8 = 0 := by omega
  by_cases h1 : t.val % 8 = 7
  · rw [outsAt0_C V c t h0 h1]
    dsimp only
    exact sout0_C_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2
  · rw [outsAt0_B V c t h0 h1]
    dsimp only
    exact sout0_B_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2

/-- Scratch buffer 1 after the first point. -/
theorem s1_first (c : Dev nD) (t : Fin cfg0.N) (ht : t.val = 0) :
    (outsAt0 V c t.val t.isLt).2.2.1 = k0_pay4 (pblk V c t) (k0_pay2 (F := F)) := by
  have hN : t.val < 8 := lt_of_lt_of_eq t.isLt (show cfg0.N = 8 from N_0)
  have h0 : t.val % 8 = 0 := by omega
  have h1 : ¬t.val % 8 = 7 := by omega
  rw [outsAt0_A V c t h0 h1]
  dsimp only
  exact sout0_A_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)

/-- Scratch buffer 1 after a later point, over what the point before left. -/
theorem s1_step (c : Dev nD) (t : Fin cfg0.N) (ht : t.val ≠ 0) :
    (outsAt0 V c t.val t.isLt).2.2.1 = k0_pay4 (pblk V c t) (outsAt0 V c (t.val - 1) (Nat.lt_of_le_of_lt (Nat.sub_le _ _) t.isLt)).2.2.1 := by
  have hN : t.val < 8 := lt_of_lt_of_eq t.isLt (show cfg0.N = 8 from N_0)
  have h0 : ¬t.val % 8 = 0 := by omega
  by_cases h1 : t.val % 8 = 7
  · rw [outsAt0_C V c t h0 h1]
    dsimp only
    exact sout0_C_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2
  · rw [outsAt0_B V c t h0 h1]
    dsimp only
    exact sout0_B_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2

/-- Scratch buffer 2 after the first point. -/
theorem s2_first (c : Dev nD) (t : Fin cfg0.N) (ht : t.val = 0) :
    (outsAt0 V c t.val t.isLt).2.2.2 = k0_pay5 (xblk V c t) (k0_pay3 (F := F)) := by
  have hN : t.val < 8 := lt_of_lt_of_eq t.isLt (show cfg0.N = 8 from N_0)
  have h0 : t.val % 8 = 0 := by omega
  have h1 : ¬t.val % 8 = 7 := by omega
  rw [outsAt0_A V c t h0 h1]
  dsimp only
  exact sout0_A_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)

/-- Scratch buffer 2 after a later point, over what the point before left. -/
theorem s2_step (c : Dev nD) (t : Fin cfg0.N) (ht : t.val ≠ 0) :
    (outsAt0 V c t.val t.isLt).2.2.2 = k0_pay5 (xblk V c t) (outsAt0 V c (t.val - 1) (Nat.lt_of_le_of_lt (Nat.sub_le _ _) t.isLt)).2.2.2 := by
  have hN : t.val < 8 := lt_of_lt_of_eq t.isLt (show cfg0.N = 8 from N_0)
  have h0 : ¬t.val % 8 = 0 := by omega
  by_cases h1 : t.val % 8 = 7
  · rw [outsAt0_C V c t h0 h1]
    dsimp only
    exact sout0_C_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2
  · rw [outsAt0_B V c t h0 h1]
    dsimp only
    exact sout0_B_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2

/-- The output block after the last point, from the scratch buffers as that point leaves them. -/
theorem out_last (c : Dev nD) (t : Fin cfg0.N) (ht : t.val = 7) :
    (outsAt0 V c t.val t.isLt).1
      = k0_pay7 (outsAt0 V c t.val t.isLt).2.2.1 (outsAt0 V c t.val t.isLt).2.2.2 (outsAt0 V c t.val t.isLt).2.1 := by
  have hz : t.val ≠ 0 := by omega
  rw [s1_step V c t hz, s2_step V c t hz, s0_step V c t hz]
  have h0 : ¬t.val % 8 = 0 := by omega
  have h1 : t.val % 8 = 7 := by omega
  rw [outsAt0_C V c t h0 h1]
  dsimp only
  exact out0_C_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2

end Cert.KernelIdeal.Hand

end
-- ==== Proof.Spec.lean ====
/-
  The mathematics both programs compute, as plain sums on the extended reals.

  With Psi of shape [128, 32768] and x of shape [512, 32768], both programs form a [128, 512] matrix P and return
  out (o, n) = sum over d of P (o, d) * x (d, n).
  The reference centres Psi first:  Pr (o, d) = sum over n of (Psi (o, n) - rowsum Psi o / 32768) * x (d, n).
  The kernel corrects afterwards:   Pk (o, d) = (sum over n of Psi (o, n) * x (d, n)) - (rowsum Psi o / 32768) * rowsum x d.
  The two agree when every entry is a real number (the product distributes over the difference and the constant
  factor moves out of the sum); at infinite entries the extended reals do not distribute, which is where the
  finiteness of the inputs is used.
  The kernel forms each of its three sums block by block, eight blocks of 4096 columns: `blocks8` regroups them.
-/
import Idealize.ShloMosaic.Lib.ValueIdx
import Idealize.ShloMosaic.PureOps.Ideal.Laws

noncomputable section

namespace Cert.Spec

open Idealize.ShloMosaic Idealize.ShloMosaic.ValueIdx

abbrev SX : Shape := ⟨2, ![512, 32768]⟩
abbrev SP : Shape := ⟨2, ![128, 32768]⟩

/-- 32768, as both programs spell it. -/
abbrev cN : EReal := Ideal.ofBits .f32 0x47000000#32

/-- Column 4096 t + k: column k of block t. -/
def col (t : Fin 8) (k : Fin 4096) : Fin 32768 := ⟨4096 * t.val + k.val, by omega⟩

/-- The kernel's matrix: the raw product, corrected by the outer product of the scaled row sums. -/
def Pk (x : SX.Idx → EReal) (psi : SP.Idx → EReal) (o : Fin 128) (d : Fin 512) : EReal :=
  (∑ n : Fin 32768, psi (ix2 o n) * x (ix2 d n))
    - Ideal.div (∑ n : Fin 32768, psi (ix2 o n)) cN * (∑ n : Fin 32768, x (ix2 d n))

/-- The reference's matrix: the product of the centred Psi with x. -/
def Pr (x : SX.Idx → EReal) (psi : SP.Idx → EReal) (o : Fin 128) (d : Fin 512) : EReal :=
  ∑ n : Fin 32768, (psi (ix2 o n) - Ideal.div (∑ n' : Fin 32768, psi (ix2 o n')) cN) * x (ix2 d n)

/-- The result from a [128, 512] matrix and x. -/
def out (P : Fin 128 → Fin 512 → EReal) (x : SX.Idx → EReal) (o : Fin 128) (n : Fin 32768) : EReal :=
  ∑ d : Fin 512, P o d * x (ix2 d n)

/-- Block t, column k  ↦  column 4096 t + k is a bijection onto the 32768 columns (quotient and remainder by 4096). -/
def colEquiv : Fin 8 × Fin 4096 ≃ Fin 32768 where
  toFun p := col p.1 p.2
  invFun n := (⟨n.val / 4096, by omega⟩, ⟨n.val % 4096, by omega⟩)
  left_inv := by
    rintro ⟨t, k⟩
    ext
    · show (4096 * t.val + k.val) / 4096 = t.val
      omega
    · show (4096 * t.val + k.val) % 4096 = k.val
      omega
  right_inv := by
    intro n
    ext
    show 4096 * (n.val / 4096) + n.val % 4096 = n.val
    omega

/-- A sum over all 32768 columns, taken as eight blocks of 4096. -/
theorem blocks8 (f : Fin 32768 → EReal) : ∑ t : Fin 8, ∑ k : Fin 4096, f (col t k) = ∑ n : Fin 32768, f n := by
  rw [← Equiv.sum_comp colEquiv f, Fintype.sum_prod_type]
  rfl

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern 0x47000000 denotes the real 32768 = 2 ^ 15. -/
theorem cN_eq : cN = ((32768 : ℝ) : EReal) := by
  simp [cN, Ideal.ofBits, Ideal.ieee, -EReal.coe_mul]; norm_num

/-- On real entries the kernel's matrix is the reference's. -/
theorem Pk_eq_Pr (x : SX.Idx → EReal) (psi : SP.Idx → EReal)
    (hx : ∀ i, ∃ r : ℝ, x i = (r : EReal)) (hpsi : ∀ i, ∃ r : ℝ, psi i = (r : EReal)) (o : Fin 128) (d : Fin 512) :
    Pk x psi o d = Pr x psi o d := by
  choose xr hxr using hx
  choose pr hpr using hpsi
  have hcN : cN = ((32768 : ℝ) : EReal) := cN_eq
  unfold Pk Pr
  simp only [hxr, hpr, hcN, Ideal.div_coe (by norm_num : (32768 : ℝ) ≠ 0), ← coe_sum, ← EReal.coe_mul,
    ← EReal.coe_sub]
  rw [EReal.coe_eq_coe_iff]
  simp only [sub_mul, Finset.sum_sub_distrib, ← Finset.mul_sum]

end Cert.Spec

end
-- ==== Proof.LibDot2T.lean ====
/-
  A matrix product against a row-major right operand, at the ideal instance, read at an entry.

  For two rank-2 operands of shapes [M, K] and [N, K] whose dimension numbers contract the second axis of BOTH
  operands (the product  l * rᵀ ), the product into a zero accumulator is, at row `p` and column `j`, the plain
  sum over `a : Fin K` of `l (p, a) * r (j, a)` on the extended reals. The dimension numbers enter only through
  four coordinate facts (which coordinate of each operand is the output's and which is the contracted one); a
  caller proves those four for its own record and gets the sum.
-/
import Idealize.ShloMosaic.Lib.ValueIdx
import Idealize.ShloMosaic.PureOps.Ideal.Laws

noncomputable section

namespace Cert.Lib.Dot2T

open Idealize.ShloMosaic Idealize.ShloMosaic.ValueIdx

/-- The contraction sum of a rank-2 by rank-2 product over the operands' common second axis, re-indexed from the
    record's one-axis contraction index to `Fin K`: the left operand is read along its row `p`, the right operand
    along its row `j` (the output's column). -/
theorem contraction_ix2 {M K N : Nat} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : (⟨2, ![M, K]⟩ : Shape).Idx → EReal) (r : (⟨2, ![N, K]⟩ : Shape).Idx → EReal) (p : Fin M) (j : Fin N) :
    ∑ k : D.contr.Idx, l (D.lhsIdx (ix2 p j) k) * r (D.rhsIdx (ix2 p j) k) = ∑ a : Fin K, l (ix2 p a) * r (ix2 j a) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 j a := funext fun d => Fin.ext (by
    match d with
    | ⟨0, _⟩ => exact hr0 _ _
    | ⟨1, _⟩ => exact (hr1 _ _).trans hk)
  rw [el, er]

/-- A kernel's matrix product `l * rᵀ` into the zero accumulator, at the ideal instance, read at `(p, j)`. -/
theorem matmul_zero_ix2 {M K N : Nat} {φ₁ φ₂ : FTy} (D : DotDims ⟨2, ![M, K]⟩ ⟨2, ![N, K]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : FVec Ideal ⟨2, ![M, K]⟩ φ₁) (r : FVec Ideal ⟨2, ![N, K]⟩ φ₂) (p : Fin M) (j : Fin N) :
    matmul D prec l r (constant (F := Ideal) ⟨2, ![M, N]⟩ .f32 0x00000000#32) (ix2 p j)
      = ∑ a : Fin K, l (ix2 p a) * r (ix2 j a) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2T

end
-- ==== Proof.KI.R0Pay.lean ====
/-
  Region 0's arithmetic at the ideal instance, one stored value at a time, read at an index.
  With psi a [128, 4096] block of Psi and x a [512, 4096] block of x:
  the zeroing stores write 0; the row-sum updates add the block's row sums to what was there; the product update adds
  the block's product  sum over k of psi (o, k) * x (d, k);  and the final store is
  acc (o, d) - (psums (o) / 32768) * xsums (d).
-/
import proofs.«128776_j4466765988635_1_alg».proof.Proof.Gen.KernelIdeal.Skeleton
import proofs.«128776_j4466765988635_1_alg».proof.Proof.Spec
import proofs.«128776_j4466765988635_1_alg».proof.Proof.LibDot2T
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## Column vectors: the layout steps of a sum that keeps its axis -/

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` array along its second axis, read at row `o`: the plain sum of that row. -/
theorem rowsum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (o : Fin a) :
    multiReduction (F := Ideal) .add [1] ⟨1, ![a]⟩ src 0x00000000#32 h hφ hacc (ix1 o) = ∑ k : Fin b, src (ix2 o k) := by
  refine (Ideal.multiReduction_add_single src 0x00000000#32 h hφ hacc (ix1 o)).trans ?_
  refine Finset.sum_congr rfl fun k _ => congrArg src (funext fun c => Fin.ext ?_)
  match c with
  | ⟨0, _⟩ => rfl
  | ⟨1, _⟩ => rfl

/-! ## The block product's dimension numbers: which coordinate of each operand is which -/

/-- The left operand's row coordinate is the output's row. -/
theorem lhs_dot_0 (i : S128x512.Idx) (q : dot_S128x4096_S512x4096_S128x512_1_1_0_0_n_n.contr.Idx) :
    (dot_S128x4096_S512x4096_S128x512_1_1_0_0_n_n.lhsIdx i q 0).val = (i 0).val := by
  unfold DotDims.lhsIdx
  rw [dif_neg (show ¬(0 : Fin S128x4096.rank) ∈ dot_S128x4096_S512x4096_S128x512_1_1_0_0_n_n.lhsBatch by decide), dif_pos (show (0 : Fin S128x4096.rank) ∈ dot_S128x4096_S512x4096_S128x512_1_1_0_0_n_n.lhsNonContracting by decide)]
  rfl
/-- The left operand's column coordinate is the contracted one. -/
theorem lhs_dot_1 (i : S128x512.Idx) (q : dot_S128x4096_S512x4096_S128x512_1_1_0_0_n_n.contr.Idx) :
    (dot_S128x4096_S512x4096_S128x512_1_1_0_0_n_n.lhsIdx i q 1).val = (q ⟨0, by decide⟩).val :=
  dot_S128x4096_S512x4096_S128x512_1_1_0_0_n_n.lhsIdx_val_of_single rfl i q
/-- The right operand's row coordinate is the output's column. -/
theorem rhs_dot_0 (i : S128x512.Idx) (q : dot_S128x4096_S512x4096_S128x512_1_1_0_0_n_n.contr.Idx) :
    (dot_S128x4096_S512x4096_S128x512_1_1_0_0_n_n.rhsIdx i q 0).val = (i 1).val := by
  unfold DotDims.rhsIdx
  rw [dif_neg (show ¬(0 : Fin S512x4096.rank) ∈ dot_S128x4096_S512x4096_S128x512_1_1_0_0_n_n.rhsBatch by decide), dif_pos (show (0 : Fin S512x4096.rank) ∈ dot_S128x4096_S512x4096_S128x512_1_1_0_0_n_n.rhsNonContracting by decide)]
  rfl
/-- The right operand's column coordinate is the contracted one. -/
theorem rhs_dot_1 (i : S128x512.Idx) (q : dot_S128x4096_S512x4096_S128x512_1_1_0_0_n_n.contr.Idx) :
    (dot_S128x4096_S512x4096_S128x512_1_1_0_0_n_n.rhsIdx i q 1).val = (q ⟨0, by decide⟩).val :=
  dot_S128x4096_S512x4096_S128x512_1_1_0_0_n_n.rhsIdx_val_of_single rfl i q

/-! ## The seven stored values -/

theorem pay1_apply (j : S128x512.Idx) : k0_pay1 (F := Ideal) j = 0 := by
  unfold k0_pay1
  rw [shapeCast_self]
  exact Ideal.ofBits_zero_f32
theorem pay2_apply (j : S128x1.Idx) : k0_pay2 (F := Ideal) j = 0 := by
  unfold k0_pay2
  rw [shapeCast_self]
  exact Ideal.ofBits_zero_f32
theorem pay3_apply (j : S512x1.Idx) : k0_pay3 (F := Ideal) j = 0 := by
  unfold k0_pay3
  rw [shapeCast_self]
  exact Ideal.ofBits_zero_f32

/-- Psi's running row sums, updated by a block. -/
theorem pay4_apply (v3 : Vec Ideal S128x4096 .f32) (v5 : Vec Ideal S128x1 .f32) (o : Fin 128) :
    k0_pay4 (F := Ideal) v3 v5 (ix2 o (0 : Fin 1)) = v5 (ix2 o (0 : Fin 1)) + ∑ k : Fin 4096, v3 (ix2 o k) := by
  unfold k0_pay4
  rw [shapeCast_self]
  refine congrArg (v5 (ix2 o (0 : Fin 1)) + ·) ?_
  refine (shapeCast_a_a1_apply _ shapeCasts_S128_S128x1 o (0 : Fin 1)).trans ?_
  exact rowsum_apply v3 _ _ _ o

/-- x's running row sums, updated by a block. -/
theorem pay5_apply (v4 : Vec Ideal S512x4096 .f32) (v12 : Vec Ideal S512x1 .f32) (d : Fin 512) :
    k0_pay5 (F := Ideal) v4 v12 (ix2 d (0 : Fin 1)) = v12 (ix2 d (0 : Fin 1)) + ∑ k : Fin 4096, v4 (ix2 d k) := by
  unfold k0_pay5
  rw [shapeCast_self]
  refine congrArg (v12 (ix2 d (0 : Fin 1)) + ·) ?_
  refine (shapeCast_a_a1_apply _ shapeCasts_S512_S512x1 d (0 : Fin 1)).trans ?_
  exact rowsum_apply v4 _ _ _ d

/-- The running product, updated by a block's product. -/
theorem pay6_apply (v3 : Vec Ideal S128x4096 .f32) (v4 : Vec Ideal S512x4096 .f32) (v22 : Vec Ideal S128x512 .f32) (o : Fin 128) (d : Fin 512) :
    k0_pay6 (F := Ideal) v3 v4 v22 (ix2 o d) = v22 (ix2 o d) + ∑ k : Fin 4096, v3 (ix2 o k) * v4 (ix2 d k) := by
  unfold k0_pay6
  rw [shapeCast_self]
  refine congrArg (v22 (ix2 o d) + ·) ?_
  exact Cert.Lib.Dot2T.matmul_zero_ix2 dot_S128x4096_S512x4096_S128x512_1_1_0_0_n_n none rfl rfl
    lhs_dot_0 lhs_dot_1 rhs_dot_0 rhs_dot_1 (truncf .bf16 v3 bitsLt_bf16_f32) (truncf .bf16 v4 bitsLt_bf16_f32) o d

/-- The stored result: the product less the outer product of the scaled row sums. -/
theorem pay7_apply (v30 : Vec Ideal S128x1 .f32) (v33 : Vec Ideal S512x1 .f32) (v35 : Vec Ideal S128x512 .f32) (o : Fin 128) (d : Fin 512) :
    k0_pay7 (F := Ideal) v30 v33 v35 (ix2 o d)
      = v35 (ix2 o d) - Ideal.div (v30 (ix2 o (0 : Fin 1))) Cert.Spec.cN * v33 (ix2 d (0 : Fin 1)) := by
  unfold k0_pay7
  show v35 (ix2 o d) - broadcastTo S128x512 _ broadcasts_S128x1_S128x512 (ix2 o d) * broadcastTo S128x512 _ broadcasts_S1x512_S128x512 (ix2 o d) = _
  rw [broadcastTo_a1_ab_apply, broadcastTo_1b_ab_apply, transpose_ix2_apply]
  rfl

end Cert.KernelIdeal.Hand

end
-- ==== Proof.KI.R0Blocks.lean ====
/-
  Region 0: reading the windows' blocks and the output array.
  Point t's block of Psi is columns 4096 t … 4096 t + 4095 of Psi, and likewise for x; the output window's one block is
  the whole [128, 512] array, written back at the last point only, so the array ends holding what the last point left
  in the output block's buffer.
-/
import proofs.«128776_j4466765988635_1_alg».proof.Proof.KI.R0Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The index maps, decided once over the grid: both input windows sit at block row 0 and block column t. -/
theorem idx_facts0 : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, win0_0.index t (0 : Fin 2) = 0 ∧ win0_0.index t (1 : Fin 2) = t.val
    ∧ win0_1.index t (0 : Fin 2) = 0 ∧ win0_1.index t (1 : Fin 2) = t.val)

/-- Entry (o, k) of point t's Psi block is Psi (o, 4096 t + k). -/
theorem iblk0_0_apply (c : Dev nD) (t : Fin cfg0.N) (o : Fin 128) (k : Fin 4096) (h : 4096 * t.val + k.val < 32768) :
    iblk0 V c 0 t (ix2 o k) = V c main_arg1 (ix2 o (⟨4096 * t.val + k.val, h⟩ : Fin 32768)) := by
  obtain ⟨e0, e1, -, -⟩ := idx_facts0 t
  unfold iblk0
  show V c main_arg1 (((cfg0.win 0).blk t).view.emb (ix2 o k)) = V c main_arg1 _
  refine congrArg _ ?_
  funext a
  apply Fin.ext
  match a with
  | ⟨0, _⟩ => show win0_0.index t (0 : Fin 2) * 128 + 1 * o.val = o.val; omega
  | ⟨1, _⟩ => show win0_0.index t (1 : Fin 2) * 4096 + 1 * k.val = 4096 * t.val + k.val; omega

/-- Entry (d, k) of point t's x block is x (d, 4096 t + k). -/
theorem iblk0_1_apply (c : Dev nD) (t : Fin cfg0.N) (d : Fin 512) (k : Fin 4096) (h : 4096 * t.val + k.val < 32768) :
    iblk0 V c 1 t (ix2 d k) = V c main_arg0 (ix2 d (⟨4096 * t.val + k.val, h⟩ : Fin 32768)) := by
  obtain ⟨-, -, e0, e1⟩ := idx_facts0 t
  unfold iblk0
  show V c main_arg0 (((cfg0.win 1).blk t).view.emb (ix2 d k)) = V c main_arg0 _
  refine congrArg _ ?_
  funext a
  apply Fin.ext
  match a with
  | ⟨0, _⟩ => show win0_1.index t (0 : Fin 2) * 512 + 1 * d.val = d.val; omega
  | ⟨1, _⟩ => show win0_1.index t (1 : Fin 2) * 4096 + 1 * k.val = 4096 * t.val + k.val; omega

/-! ## The output array -/

/-- At the last point the output window's block index is (0, 0), so its block starts at offset (0, 0). -/
theorem off0_2_last : (fun a => win0_2.index t0_7 a * main_v0.ty.shape.size a) = fun _ => 0 :=
  funext fun a => by fin_cases a <;> decide

/-- The only point that writes the output block back is the last one. -/
theorem eq_last_of_flush0_2 (t : Fin cfg0.N) (hf : (cfg0.win 2).flush t = true) : t = t0_7 := by
  have hN : cfg0.N = 8 := N_0
  have h7 : t.val % 8 = 7 := (flush0_2 t).mp hf
  have ht : t.val < cfg0.N := t.isLt
  exact Fin.ext (show t.val = 7 by omega)

/-- There the block is the whole [128, 512] array at offset (0, 0): contents read through it come back unchanged, -/
theorem read_blk0_2_last (G : main_v0.ty.Contents (Elt F)) : ((cfg0.win 2).blk t0_7).view.read (Elt F) G = G :=
  Memref.read_access_unit_zero (Elt F) main_v0 off0_2_last (fun a => by rw [congrFun off0_2_last a]; simp) G

/-- and every index of the array lies in it. -/
theorem mem_blk0_2_last (i : main_v0.ty.shape.Idx) : i ∈ ((cfg0.win 2).blk t0_7).view.set := by
  show i ∈ ((View.whole main_v0).slice (win0_2.rect t0_7)).set
  rw [View.set_slice_whole]
  exact View.mem_set_unit_zero off0_2_last _ i

/-- After the region the output array holds what the last point left in the output block's buffer. -/
theorem arrAt0_2 (c : Dev nD) :
    (dat0 V c).arrAt 2 cfg0.N = (outsAt0 V c 7 (by rw [show cfg0.N = 8 from N_0]; decide)).1 := by
  refine (dat0 V c).arrAt_eq_of_cover 2 _ (fun t hf => ?_) (fun i => ⟨t0_7, (flush0_2 t0_7).mpr rfl, mem_blk0_2_last i⟩)
  -- a point that writes back is the last one; what it writes is all of what its body left (the window is not cut)
  obtain rfl : t = t0_7 := eq_last_of_flush0_2 t hf
  show (cfg0.win 2).cut (grid0.coords t0_7) ((dat0 V c).after 2 t0_7) = _
  rw [after0_2]
  exact (read_blk0_2_last (outsAt0 V c 7 _).1).symm

end Cert.KernelIdeal.Hand

end
-- ==== Proof.KI.R0Value.lean ====
/-
  Region 0 at the ideal instance: what the region leaves in its output array.
  By induction over the grid points, after point n the running product holds, at (o, d), the sum over the first n + 1
  blocks of Psi (o, ·) * x (d, ·), and the two running row sums the sums of Psi (o, ·) and of x (d, ·) over those blocks
  (the zero fill contributes 0; addition of extended reals is associative and commutative, so no finiteness is needed).
  After the last point the blocks are all 32768 columns, and the output array is the kernel's matrix of the spec:
  the full product less the outer product of Psi's row sums over 32768 with x's row sums.
-/
import proofs.«128776_j4466765988635_1_alg».proof.Proof.KI.R0Steps
import proofs.«128776_j4466765988635_1_alg».proof.Proof.KI.R0Pay
import proofs.«128776_j4466765988635_1_alg».proof.Proof.KI.R0Blocks
import proofs.«128776_j4466765988635_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The two argument arrays as the region finds them, at their literal types. -/
abbrev xarr (c : Dev nD) : S512x32768.Idx → EReal := V c main_arg0
abbrev parr (c : Dev nD) : S128x32768.Idx → EReal := V c main_arg1

/-- Column k of block t (for any natural t; the blocks that occur are t < 8, where nothing wraps). -/
def colN (t : ℕ) (k : Fin 4096) : Fin 32768 := ⟨(4096 * t + k.val) % 32768, Nat.mod_lt _ (by decide)⟩

theorem colN_eq (t : ℕ) (k : Fin 4096) (h : 4096 * t + k.val < 32768) : colN t k = ⟨4096 * t + k.val, h⟩ :=
  Fin.ext (Nat.mod_eq_of_lt h)

theorem pblk_apply (c : Dev nD) (t : Fin cfg0.N) (o : Fin 128) (k : Fin 4096) :
    pblk V c t (ix2 o k) = parr V c (ix2 o (colN t.val k)) := by
  have hN : t.val < 8 := lt_of_lt_of_eq t.isLt (show cfg0.N = 8 from N_0)
  have h : 4096 * t.val + k.val < 32768 := by have := k.isLt; omega
  rw [colN_eq t.val k h]
  exact iblk0_0_apply V c t o k h

theorem xblk_apply (c : Dev nD) (t : Fin cfg0.N) (d : Fin 512) (k : Fin 4096) :
    xblk V c t (ix2 d k) = xarr V c (ix2 d (colN t.val k)) := by
  have hN : t.val < 8 := lt_of_lt_of_eq t.isLt (show cfg0.N = 8 from N_0)
  have h : 4096 * t.val + k.val < 32768 := by have := k.isLt; omega
  rw [colN_eq t.val k h]
  exact iblk0_1_apply V c t d k h

/-- The three running sums after point n. -/
theorem running (c : Dev nD) : ∀ (n : ℕ) (hn : n < cfg0.N),
    (∀ (o : Fin 128) (d : Fin 512), (outsAt0 V c n hn).2.1 (ix2 o d)
        = ∑ t ∈ Finset.range (n + 1), ∑ k : Fin 4096, parr V c (ix2 o (colN t k)) * xarr V c (ix2 d (colN t k)))
    ∧ (∀ o : Fin 128, (outsAt0 V c n hn).2.2.1 (ix2 o (0 : Fin 1))
        = ∑ t ∈ Finset.range (n + 1), ∑ k : Fin 4096, parr V c (ix2 o (colN t k)))
    ∧ (∀ d : Fin 512, (outsAt0 V c n hn).2.2.2 (ix2 d (0 : Fin 1))
        = ∑ t ∈ Finset.range (n + 1), ∑ k : Fin 4096, xarr V c (ix2 d (colN t k))) := by
  intro n
  induction n with
  | zero =>
    intro hn
    have e0 : (outsAt0 V c 0 hn).2.1 = _ := s0_first V c ⟨0, hn⟩ rfl
    have e1 : (outsAt0 V c 0 hn).2.2.1 = _ := s1_first V c ⟨0, hn⟩ rfl
    have e2 : (outsAt0 V c 0 hn).2.2.2 = _ := s2_first V c ⟨0, hn⟩ rfl
    refine ⟨fun o d => ?_, fun o => ?_, fun d => ?_⟩
    · rw [e0]
      refine (pay6_apply (pblk V c ⟨0, hn⟩) (xblk V c ⟨0, hn⟩) _ o d).trans ?_
      rw [pay1_apply, zero_add, Finset.sum_range_one]
      exact Finset.sum_congr rfl fun k _ => by rw [pblk_apply, xblk_apply]
    · rw [e1]
      refine (pay4_apply (pblk V c ⟨0, hn⟩) _ o).trans ?_
      rw [pay2_apply, zero_add, Finset.sum_range_one]
      exact Finset.sum_congr rfl fun k _ => by rw [pblk_apply]
    · rw [e2]
      refine (pay5_apply (xblk V c ⟨0, hn⟩) _ d).trans ?_
      rw [pay3_apply, zero_add, Finset.sum_range_one]
      exact Finset.sum_congr rfl fun k _ => by rw [xblk_apply]
  | succ n ih =>
    intro hn
    obtain ⟨i0, i1, i2⟩ := ih (Nat.lt_of_succ_lt hn)
    have e0 := s0_step V c ⟨n + 1, hn⟩ (Nat.succ_ne_zero n)
    have e1 := s1_step V c ⟨n + 1, hn⟩ (Nat.succ_ne_zero n)
    have e2 := s2_step V c ⟨n + 1, hn⟩ (Nat.succ_ne_zero n)
    simp only [Nat.add_sub_cancel] at e0 e1 e2
    refine ⟨fun o d => ?_, fun o => ?_, fun d => ?_⟩
    · rw [e0]
      refine (pay6_apply (pblk V c ⟨n + 1, hn⟩) (xblk V c ⟨n + 1, hn⟩) _ o d).trans ?_
      rw [i0 o d, Finset.sum_range_succ _ (n + 1)]
      refine congrArg (_ + ·) ?_
      exact Finset.sum_congr rfl fun k _ => by rw [pblk_apply, xblk_apply]
    · rw [e1]
      refine (pay4_apply (pblk V c ⟨n + 1, hn⟩) _ o).trans ?_
      rw [i1 o, Finset.sum_range_succ _ (n + 1)]
      refine congrArg (_ + ·) ?_
      exact Finset.sum_congr rfl fun k _ => by rw [pblk_apply]
    · rw [e2]
      refine (pay5_apply (xblk V c ⟨n + 1, hn⟩) _ d).trans ?_
      rw [i2 d, Finset.sum_range_succ _ (n + 1)]
      refine congrArg (_ + ·) ?_
      exact Finset.sum_congr rfl fun k _ => by rw [xblk_apply]

/-- Eight blocks of 4096 columns are all 32768 columns. -/
theorem range8 (f : Fin 32768 → EReal) : ∑ t ∈ Finset.range 8, ∑ k : Fin 4096, f (colN t k) = ∑ n : Fin 32768, f n := by
  rw [Finset.sum_range]
  rw [← Cert.Spec.blocks8 f]
  refine Finset.sum_congr rfl fun t _ => Finset.sum_congr rfl fun k _ => ?_
  have h : 4096 * t.val + k.val < 32768 := by have := k.isLt; have := t.isLt; omega
  rw [colN_eq t.val k h]
  rfl

/-- The kernel's matrix as an array. -/
abbrev pkArr (x : S512x32768.Idx → EReal) (psi : S128x32768.Idx → EReal) : S128x512.Idx → EReal :=
  fun j => Cert.Spec.Pk x psi (j 0) (j 1)

theorem pkArr_ix2 (x : S512x32768.Idx → EReal) (psi : S128x32768.Idx → EReal) (o : Fin 128) (d : Fin 512) :
    pkArr x psi (ix2 o d) = Cert.Spec.Pk x psi o d := rfl

/-- After region 0 its output array is the kernel's matrix of the two argument arrays. -/
theorem final0_2 (c : Dev nD) : (dat0 V c).arrAt 2 cfg0.N = pkArr (xarr V c) (parr V c) := by
  have h7 : 7 < cfg0.N := by rw [show cfg0.N = 8 from N_0]; decide
  rw [arrAt0_2 V c]
  funext j
  obtain ⟨o, d, rfl⟩ : ∃ (o : Fin 128) (d : Fin 512), j = ix2 o d := ⟨j 0, j 1, eq_ix2 j⟩
  have el : (outsAt0 V c 7 h7).1 = _ := out_last V c ⟨7, h7⟩ rfl
  obtain ⟨i0, i1, i2⟩ := running V c 7 h7
  rw [el]
  refine (pay7_apply _ _ _ o d).trans ?_
  rw [i0 o d, i1 o, i2 d, pkArr_ix2]
  unfold Cert.Spec.Pk
  rw [range8 (fun n => parr V c (ix2 o n) * xarr V c (ix2 d n)), range8 (fun n => parr V c (ix2 o n)), range8 (fun n => xarr V c (ix2 d n))]

end Cert.KernelIdeal.Hand

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KI.R1Value.lean ====
/-
  Region 1 (the output product), at the ideal instance: what the region leaves in its output array, entry by entry.
  Point t of the eight writes back a 128 x 4096 block, the product of the whole centred matrix C (128 x 512) with columns
  [4096 t, 4096 (t+1)) of x (512 x 32768). So every point writes its block of ONE array, (o, n) ↦ Σ_d C (o, d) * x (d, n);
  the eight blocks tile the 32768 columns (column n lies in block n / 4096), so the array ends holding exactly that.
-/
import proofs.«128776_j4466765988635_1_alg».proof.Proof.KI.R1Frame
import Idealize.ShloMosaic.Lib.Pipeline.Value
import Idealize.ShloMosaic.Lib.ValueIdx
import Idealize.ShloMosaic.PureOps.Ideal.Laws
import proofs.«128776_j4466765988635_1_alg».proof.Proof.LibDot2

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The product's dimension numbers, coordinate by coordinate

The left operand is read at (row of the output, contracted index), the right at (contracted index, column of the output). -/

theorem lhs_k1_0 (i : S128x4096.Idx) (q : dot_S128x512_S512x4096_S128x4096_1_0_0_1_n_n.contr.Idx) :
    (dot_S128x512_S512x4096_S128x4096_1_0_0_1_n_n.lhsIdx i q 0).val = (i 0).val := by
  unfold DotDims.lhsIdx
  rw [dif_neg (show ¬(0 : Fin S128x512.rank) ∈ dot_S128x512_S512x4096_S128x4096_1_0_0_1_n_n.lhsBatch by decide), dif_pos (show (0 : Fin S128x512.rank) ∈ dot_S128x512_S512x4096_S128x4096_1_0_0_1_n_n.lhsNonContracting by decide)]
  rfl
theorem lhs_k1_1 (i : S128x4096.Idx) (q : dot_S128x512_S512x4096_S128x4096_1_0_0_1_n_n.contr.Idx) :
    (dot_S128x512_S512x4096_S128x4096_1_0_0_1_n_n.lhsIdx i q 1).val = (q ⟨0, by decide⟩).val :=
  dot_S128x512_S512x4096_S128x4096_1_0_0_1_n_n.lhsIdx_val_of_single rfl i q
theorem rhs_k1_0 (i : S128x4096.Idx) (q : dot_S128x512_S512x4096_S128x4096_1_0_0_1_n_n.contr.Idx) :
    (dot_S128x512_S512x4096_S128x4096_1_0_0_1_n_n.rhsIdx i q 0).val = (q ⟨0, by decide⟩).val :=
  dot_S128x512_S512x4096_S128x4096_1_0_0_1_n_n.rhsIdx_val_of_single rfl i q
theorem rhs_k1_1 (i : S128x4096.Idx) (q : dot_S128x512_S512x4096_S128x4096_1_0_0_1_n_n.contr.Idx) :
    (dot_S128x512_S512x4096_S128x4096_1_0_0_1_n_n.rhsIdx i q 1).val = (i 1).val := by
  unfold DotDims.rhsIdx
  rw [dif_neg (show ¬(1 : Fin S512x4096.rank) ∈ dot_S128x512_S512x4096_S128x4096_1_0_0_1_n_n.rhsBatch by decide), dif_pos (show (1 : Fin S512x4096.rank) ∈ dot_S128x512_S512x4096_S128x4096_1_0_0_1_n_n.rhsNonContracting by decide)]
  rfl

/-! ## The body's result at an entry -/

/-- The body's product of two blocks, at row p and column j of the block: the sum over the 512 contracted indices. The
    same-shape cast and the two changes of format are the identity at the ideal instance; the accumulator is zero. -/
theorem pay1_at (x0 : Vec Ideal S128x512 .f32) (x1 : Vec Ideal S512x4096 .f32) (p : Fin 128) (j : Fin 4096) :
    k1_pay1 (F := Ideal) x0 x1 (ix2 p j) = ∑ a : Fin 512, x0 (ix2 p a) * x1 (ix2 a j) := by
  unfold k1_pay1
  rw [shapeCast_self]
  exact Cert.Lib.Dot2.matmul_zero_ix2 (M := 128) (K := 512) (N := 4096) dot_S128x512_S512x4096_S128x4096_1_0_0_1_n_n none rfl rfl
    lhs_k1_0 lhs_k1_1 rhs_k1_0 rhs_k1_1 (truncf .bf16 x0 bitsLt_bf16_f32) (truncf .bf16 x1 bitsLt_bf16_f32) p j

/-! ## The body's result from its two input blocks -/

theorem hz1 : (![0, 0] : Fin 2 → Nat) = fun _ => 0 := funext fun a => by fin_cases a <;> rfl

/-- What the body leaves in the output buffer, at row p and column j of the block, from the two input blocks. -/
theorem out1_2_at (x0 : Vec Ideal S128x512 .f32) (x1 : Vec Ideal S512x4096 .f32) (p : Fin 128) (j : Fin 4096) :
    out1_2 (F := Ideal) x0 x1 (ix2 p j) = ∑ a : Fin 512, x0 (ix2 p a) * x1 (ix2 a j) := by
  unfold out1_2
  rw [View.canon_unit_zero hz1]
  simp only [View.ld_unit_zero (S := S128x512) hz1, View.ld_unit_zero (S := S512x4096) hz1]
  exact pay1_at x0 x1 p j

/-! ## The blocks as parts of the arrays

A block's coordinate in its array is (block index) x (block size) + the coordinate inside the block. The centred matrix's block
is the whole array at every point; point t's block of x and of the result is columns [4096 t, 4096 t + 4096). -/

/-- The index maps, decided over the eight points. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

variable (V : (c : Dev nD) → (b : Ref sig .tc) → Buf (Elt Ideal) ((c : Thread nD τ).loc b))

/-- The centred matrix's block at any point is the array as the region finds it. -/
theorem iblk1_0_at (c : Dev nD) (t : Fin cfg1.N) (p : Fin 128) (a : Fin 512) :
    (iblk1 V c 0 t : Vec Ideal S128x512 .f32) (ix2 p a) = (V c main_v0 : S128x512.Idx → EReal) (ix2 p a) := by
  obtain ⟨e0, e1, -, -, -, -⟩ := idx_facts1 t
  unfold iblk1
  rw [View.read_apply]
  show V c main_v0 _ = V c main_v0 _
  congr 1
  funext d
  apply Fin.ext
  match d with
  | ⟨0, _⟩ => show win1_0.index t (0 : Fin 2) * 128 + 1 * p.val = p.val; omega
  | ⟨1, _⟩ => show win1_0.index t (1 : Fin 2) * 512 + 1 * a.val = a.val; omega

/-- Point t's block of x is columns 4096 t onward of the array as the region finds it. -/
theorem iblk1_1_at (c : Dev nD) (t : Fin cfg1.N) (a : Fin 512) (j : Fin 4096) (n : Fin 32768) (hn : n.val = 4096 * t.val + j.val) :
    (iblk1 V c 1 t : Vec Ideal S512x4096 .f32) (ix2 a j) = (V c main_arg0 : S512x32768.Idx → EReal) (ix2 a n) := by
  obtain ⟨-, -, e0, e1, -, -⟩ := idx_facts1 t
  unfold iblk1
  rw [View.read_apply]
  show V c main_arg0 _ = V c main_arg0 _
  congr 1
  funext d
  apply Fin.ext
  match d with
  | ⟨0, _⟩ => show win1_1.index t (0 : Fin 2) * 512 + 1 * a.val = a.val; omega
  | ⟨1, _⟩ => show win1_1.index t (1 : Fin 2) * 4096 + 1 * j.val = n.val; omega

/-! ## What every point writes back is its block of one array -/

/-- The product of the centred matrix with x, as one array: entry (o, n) is the sum over d of C (o, d) * x (d, n). -/
abbrev prodArr (a0 : S128x512.Idx → EReal) (a1 : S512x32768.Idx → EReal) : S128x32768.Idx → EReal :=
  fun i => ∑ d : Fin 512, a0 (ix2 (i 0) d) * a1 (ix2 d (i 1))

/-- The product array at an index given by its coordinates. -/
theorem prodArr_at (a0 : S128x512.Idx → EReal) (a1 : S512x32768.Idx → EReal) (i : S128x32768.Idx) (o : Fin 128) (n : Fin 32768)
    (h0 : (i 0).val = o.val) (h1 : (i 1).val = n.val) :
    prodArr a0 a1 i = ∑ d : Fin 512, a0 (ix2 o d) * a1 (ix2 d n) := by
  have e0 : i 0 = o := Fin.ext h0
  have e1 : i 1 = n := Fin.ext h1
  show ∑ d : Fin 512, a0 (ix2 (i 0) d) * a1 (ix2 d (i 1)) = _
  rw [e0, e1]

/-- Point t writes back block t of the product array: row p, column j of the block is row p, column 4096 t + j of the array,
    and the sum there runs over the same row of the centred matrix and the same column of x. -/
theorem flushed1_2_eq (c : Dev nD) (t : Fin cfg1.N) :
    (dat1 (F := Ideal) V c).flushed 2 t
      = ((cfg1.win 2).blk t).view.read (Elt Ideal) (prodArr (V c main_v0) (V c main_arg0)) := by
  show (cfg1.win 2).cut (grid1.coords t) ((dat1 (F := Ideal) V c).after 2 t) = _
  rw [after1_2]
  obtain ⟨-, -, -, -, e0, e1⟩ := idx_facts1 t
  have hN : t.val < 8 := lt_of_lt_of_eq t.isLt N_1
  funext y
  obtain ⟨p, j, rfl⟩ : ∃ (p : Fin 128) (j : Fin 4096), y = ix2 p j := ⟨y 0, y 1, eq_ix2 y⟩
  rw [View.read_apply]
  refine (out1_2_at (iblk1 V c 0 t) (iblk1 V c 1 t) p j).trans ?_
  have hp : p.val < 128 := p.isLt
  have hj : j.val < 4096 := j.isLt
  refine ((prodArr_at (V c main_v0) (V c main_arg0) (((cfg1.win 2).blk t).view.emb (ix2 p j)) p ⟨4096 * t.val + j.val, by omega⟩ ?_ ?_).trans ?_).symm
  · show win1_2.index t (0 : Fin 2) * 128 + 1 * p.val = p.val; omega
  · show win1_2.index t (1 : Fin 2) * 4096 + 1 * j.val = 4096 * t.val + j.val; omega
  · refine Finset.sum_congr rfl fun a _ => ?_
    rw [iblk1_0_at V c t p a, iblk1_1_at V c t a j ⟨4096 * t.val + j.val, by omega⟩ rfl]

/-! ## The eight blocks tile the array -/

/-- An index of the array is in point t's block iff each coordinate is in the block's range on its axis. -/
theorem mem_blk1_2 (t : Fin cfg1.N) (i : S128x32768.Idx) :
    i ∈ ((cfg1.win 2).blk t).view.set ↔ ∀ a : Fin 2, win1_2.index t a * S128x4096.size a ≤ (i a).val ∧ (i a).val < win1_2.index t a * S128x4096.size a + S128x4096.size a := by
  show i ∈ ((View.whole main_v1).slice (win1_2.rect t)).set ↔ _
  rw [View.set_slice_whole, Rect.mem_set_unit]
  exact Iff.rfl

/-- Column n lies in the block of point n / 4096, which writes it back. -/
theorem cover1_2_arr (i : S128x32768.Idx) :
    ∃ t : Fin cfg1.N, (cfg1.win 2).flush t = true ∧ i ∈ ((cfg1.win 2).blk t).view.set := by
  have hi0 : (i 0).val < 128 := idx2_lt0 i
  have hi1 : (i 1).val < 32768 := idx2_lt1 i
  let t : Fin cfg1.N := ⟨(i 1).val / 4096, by show _ < grid1.N; rw [N_1]; omega⟩
  have ht : t.val = (i 1).val / 4096 := rfl
  obtain ⟨-, -, -, -, e0, e1⟩ := idx_facts1 t
  refine ⟨t, flush1_2 t, ?_⟩
  rw [mem_blk1_2]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 4096 ≤ (i 1).val ∧ (i 1).val < win1_2.index t (1 : Fin 2) * 4096 + 4096; omega

/-! ## The array after the region -/

/-- The output array after the eight write-backs is the product array. -/
theorem final1_2 (c : Dev nD) : (dat1 (F := Ideal) V c).arrAt 2 cfg1.N = prodArr (V c main_v0) (V c main_arg0) :=
  (dat1 (F := Ideal) V c).arrAt_eq_of_cover 2 (prodArr (V c main_v0) (V c main_arg0)) (fun t _ => flushed1_2_eq V c t) cover1_2_arr

/-- The product array at (o, n): row o of the centred matrix against column n of x. -/
theorem prodArr_ix2 (a0 : S128x512.Idx → EReal) (a1 : S512x32768.Idx → EReal) (o : Fin 128) (n : Fin 32768) :
    prodArr a0 a1 (ix2 o n) = ∑ d : Fin 512, a0 (ix2 o d) * a1 (ix2 d n) := rfl

/-- Entry (o, n) of the region's output array: row o of the centred matrix against column n of x. -/
theorem arrAt1_2 (V : (c : Dev nD) → (b : Ref sig .tc) → Buf (Elt Ideal) ((c : Thread nD τ).loc b)) (c : Dev nD) (o : Fin 128) (n : Fin 32768) :
    (dat1 (F := Ideal) V c).arrAt 2 cfg1.N (ix2 o n) = prodArr (V c main_v0) (V c main_arg0) (ix2 o n) := by
  rw [final1_2 V c]

end Cert.KernelIdeal.Hand

end
-- ==== Proof.KI.Out.lean ====
/-
  The idealized kernel's result, entry by entry. Region 1 leaves in its output array, at (o, n), the sum over d of
  what region 0 left in the intermediate array at (o, d) times x (d, n); region 0 left the kernel's matrix there; and on
  real entries the kernel's matrix is the reference's (the one place the inputs' finiteness is used). The arguments
  pass through both regions unchanged, so everything is a function of the launch contents.
-/
import proofs.«128776_j4466765988635_1_alg».proof.Proof.KI.Run
import proofs.«128776_j4466765988635_1_alg».proof.Proof.KI.R0Value
import proofs.«128776_j4466765988635_1_alg».proof.Proof.KI.R1Value
import proofs.«128776_j4466765988635_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- Entry (o, n) of the kernel's result array, for launch contents with real entries: the spec's result over the
    reference's matrix. -/
theorem kernel_out (m : (ℓ : Loc nD τ sig) → Buf (Elt Ideal) ℓ) (c : Dev nD)
    (hx : ∀ i, ∃ r : ℝ, m ((c.tc : Thread nD τ).loc main_arg0) i = (r : EReal))
    (hpsi : ∀ i, ∃ r : ℝ, m ((c.tc : Thread nD τ).loc main_arg1) i = (r : EReal))
    (o : Fin 128) (n : Fin 32768) :
    (dat1 (F := Ideal) (V2 m) c).arrAt 2 cfg1.N (ix2 o n)
      = Cert.Spec.out (Cert.Spec.Pr (m ((c.tc : Thread nD τ).loc main_arg0)) (m ((c.tc : Thread nD τ).loc main_arg1)))
          (m ((c.tc : Thread nD τ).loc main_arg0)) o n := by
  refine (arrAt1_2 (V2 m) c o n).trans ?_
  show @Eq EReal (prodArr (V2 m c main_v0) (V2 m c main_arg0) (ix2 o n)) (Cert.Spec.out _ _ o n)
  rw [prodArr_ix2]
  unfold Cert.Spec.out
  refine Finset.sum_congr rfl fun d _ => ?_
  have e0 : (V2 m c main_v0 : S128x512.Idx → EReal)
      = pkArr (m ((c.tc : Thread nD τ).loc main_arg0)) (m ((c.tc : Thread nD τ).loc main_arg1)) :=
    (V2_main_v0 m c).trans (final0_2 (V1 m) c)
  have e1 : (V2 m c main_arg0 : S512x32768.Idx → EReal) = m ((c.tc : Thread nD τ).loc main_arg0) := V2_main_arg0 m c
  have hP : Cert.Spec.Pk (m ((c.tc : Thread nD τ).loc main_arg0)) (m ((c.tc : Thread nD τ).loc main_arg1)) o d
      = Cert.Spec.Pr (m ((c.tc : Thread nD τ).loc main_arg0)) (m ((c.tc : Thread nD τ).loc main_arg1)) o d :=
    Cert.Spec.Pk_eq_Pr (m ((c.tc : Thread nD τ).loc main_arg0)) (m ((c.tc : Thread nD τ).loc main_arg1)) hx hpsi o d
  rw [e0, e1, pkArr_ix2, hP]

end Cert.KernelIdeal.Hand

end
-- ==== Proof.RefValue.lean ====
/-
  The reference program's result, entry by entry, is the spec's `out` over the reference's matrix `Pr`.
-/
import proofs.«128776_j4466765988635_1_alg».proof.Proof.Gen.ReferenceIdeal.Read
import proofs.«128776_j4466765988635_1_alg».proof.Proof.Spec

noncomputable section

namespace Cert.ReferenceIdeal.RefValue

open Idealize.ShloMosaic Idealize.ShloMosaic.ValueIdx Cert.ReferenceIdeal Cert.ReferenceIdeal.Gen

/-- The last product reads its left operand at (o, d). -/
theorem lidx7_eq (o : Fin 128) (n : Fin 32768) (d : Fin 512) :
    Read.lidx_main_v7 (ix2 o n) d = (ix2 o d : S128x512.Idx) :=
  funext fun a => Fin.ext (by match a with | ⟨0, _⟩ => rfl | ⟨1, _⟩ => rfl)

/-- The last product reads x at (d, n). -/
theorem ridx7_eq (o : Fin 128) (n : Fin 32768) (d : Fin 512) :
    Read.ridx_main_v7 (ix2 o n) d = (ix2 d n : S512x32768.Idx) :=
  funext fun a => Fin.ext (by match a with | ⟨0, _⟩ => rfl | ⟨1, _⟩ => rfl)

/-- The first product reads the centred Psi at (o, k). -/
theorem lidx6_eq (o : Fin 128) (d : Fin 512) (k : Fin 32768) :
    Read.lidx_main_v6 (ix2 o d) k = (ix2 o k : S128x32768.Idx) :=
  funext fun a => Fin.ext (by match a with | ⟨0, _⟩ => rfl | ⟨1, _⟩ => rfl)

/-- The first product reads x at (d, k). -/
theorem ridx6_eq (o : Fin 128) (d : Fin 512) (k : Fin 32768) :
    Read.ridx_main_v6 (ix2 o d) k = (ix2 d k : S512x32768.Idx) :=
  funext fun a => Fin.ext (by match a with | ⟨0, _⟩ => rfl | ⟨1, _⟩ => rfl)

/-- The row sum under the broadcasts at (o, k) runs over row o of Psi. -/
theorem idx0_eq (o : Fin 128) (k k' : Fin 32768) :
    Read.idx_main_v0 (Read.idx_main_v1 (Read.idx_main_v4 (ix2 o k))) k' = (ix2 o k' : S128x32768.Idx) :=
  funext fun a => Fin.ext (by match a with | ⟨0, _⟩ => rfl | ⟨1, _⟩ => rfl)

/-- The centred Psi at (o, k): the entry minus the row's mean. -/
theorem v5_apply (psi : (⟨S128x32768, .f32⟩ : BufTy).Contents (Elt Ideal)) (o : Fin 128) (k : Fin 32768) :
    Read.val_main_v5 (F := Ideal) psi (ix2 o k)
      = psi (ix2 o k) - Ideal.div (∑ n' : Fin 32768, psi (ix2 o n')) Cert.Spec.cN := by
  rw [Read.val_main_v5_apply, Read.val_main_v4_apply, Read.val_main_v3_apply, Read.val_main_v1_apply,
    Read.val_main_v2_apply, Read.val_main_cst_0_apply, Read.val_main_v0_apply, Read.val_main_cst_apply,
    Ideal.ofBits_def, Ideal.ofBits_def, Ideal.ofBits_zero_f32, zero_add, Ideal.subf_def, Ideal.hostDivf_def]
  simp only [idx0_eq]

/-- The reference's last stage at (o, n): the sum over d of its centred product at (o, d) times x (d, n). -/
theorem ref_apply (x : (⟨S512x32768, .f32⟩ : BufTy).Contents (Elt Ideal)) (psi : (⟨S128x32768, .f32⟩ : BufTy).Contents (Elt Ideal))
    (o : Fin 128) (n : Fin 32768) :
    Cert.ReferenceIdeal.Read.val_main_v7 (F := Ideal) x psi (ix2 o n) = Cert.Spec.out (Cert.Spec.Pr x psi) x o n := by
  unfold Cert.Spec.out Cert.Spec.Pr
  rw [Read.val_main_v7_apply]
  refine Finset.sum_congr rfl fun d _ => ?_
  rw [lidx7_eq, ridx7_eq, Read.val_main_v6_apply]
  refine congrArg (· * x (ix2 d n)) (Finset.sum_congr rfl fun k _ => ?_)
  rw [lidx6_eq, ridx6_eq, v5_apply]

end Cert.ReferenceIdeal.RefValue

end
-- ==== Proof.Finite.lean ====
/-
  From the precondition (every input entry has absolute value below +infinity) to: every input entry is a real number.
-/
import proofs.«128776_j4466765988635_1_alg».proof.Proof.Gen.Pre_finite_inputs
import proofs.«128776_j4466765988635_1_alg».proof.Proof.Gen.KernelIdeal
import proofs.«128776_j4466765988635_1_alg».proof.Defs
import Idealize.ShloMosaic.Lib.ReduceAll
import Idealize.ShloMosaic.Lib.ValueIdx

noncomputable section

namespace Cert.Finite

open Idealize.ShloMosaic Idealize.ShloMosaic.TcCoe Idealize.SL.Sem

/-- The single-precision word 0x7F800000 denotes +infinity. -/
theorem inf_word : Ideal.ofBits .f32 0x7F800000#32 = (⊤ : EReal) := by
  simp [Ideal.ofBits, Ideal.ieee]

/-- An extended real whose absolute value max x (-x) lies strictly below +infinity is a real number. -/
theorem real_of_abs_lt_top (x : EReal)
    (hx : Ideal.cmp .olt (max x (-x)) (Ideal.ofBits .f32 0x7F800000#32) = 1#1) : ∃ r : ℝ, x = (r : EReal) := by
  rw [inf_word] at hx
  induction x using EReal.rec with
  | bot => simp [Ideal.cmp] at hx
  | top => simp [Ideal.cmp] at hx
  | coe r => exact ⟨r, rfl⟩

/-- Under the precondition both argument arrays of the idealized kernel hold real numbers only. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  have h0 := congrFun (h c) ValueIdx.ix0
  dsimp only [Cert.Pre_finite_inputs.fn] at h0
  haveI : Subsingleton Cert.Pre_finite_inputs.S_.Idx := ⟨fun a b => funext fun d => d.elim0⟩
  obtain ⟨ha, hb⟩ := IntOp.andi_eq_one.1 h0
  refine ⟨fun i => ?_, fun i => ?_⟩
  · exact real_of_abs_lt_top _ (Host.reduce_andi_all _ _ _ _ _ ha i)
  · exact real_of_abs_lt_top _ (Host.reduce_andi_all _ _ _ _ _ hb i)

end Cert.Finite

end
-- ==== Proof.lean ====
/-
  The certificate. Both programs compute, from x of shape [512, 32768] and Psi of shape [128, 32768],
      out (o, n) = sum over d of P (o, d) * x (d, n),
  the reference with P = (Psi - rowmean Psi) x^T, the kernel with P = Psi x^T - (rowsum Psi / 32768) (rowsum x)^T, accumulated
  over eight blocks of 4096 columns in scratch buffers and corrected at the last block. On finite inputs the two
  matrices agree (distributivity of the product over the difference, which the extended reals have only on real
  entries); every sum regrouping is associativity and commutativity of addition.
  The three frames: each kernel program is two pipelined regions run one after the other, the first carrying three
  scratch buffers across its grid points; the reference is a straight line of host operations.
  The ideal pass rewrote nothing, so the preservation claim is trivial.
-/
import proofs.«128776_j4466765988635_1_alg».proof.Defs
import proofs.«128776_j4466765988635_1_alg».proof.Proof.Gen.Kernel
import proofs.«128776_j4466765988635_1_alg».proof.Proof.Gen.KernelIdeal
import proofs.«128776_j4466765988635_1_alg».proof.Proof.Gen.ReferenceIdeal
import proofs.«128776_j4466765988635_1_alg».proof.Proof.Gen.Pre_finite_inputs
import proofs.«128776_j4466765988635_1_alg».proof.Proof.Gen.ReferenceIdeal.Run
import proofs.«128776_j4466765988635_1_alg».proof.Proof.Gen.ReferenceIdeal.Read
import proofs.«128776_j4466765988635_1_alg».proof.Proof.K.Run
import proofs.«128776_j4466765988635_1_alg».proof.Proof.KI.Run
import proofs.«128776_j4466765988635_1_alg».proof.Proof.KI.Out
import proofs.«128776_j4466765988635_1_alg».proof.Proof.RefValue
import proofs.«128776_j4466765988635_1_alg».proof.Proof.Finite

noncomputable section

namespace Cert.Proof

open Idealize.ShloMosaic Idealize.ShloMosaic.TcCoe Idealize.SL.Sem Idealize.ShloMosaic.ValueIdx

/-- The word-level kernel runs to the end and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result array: the kernel's is
    read off its two regions, the reference's off its host operations, and entry by entry both are the spec's result. -/
theorem algebraic : Cert.algebraic_KernelIdeal_ReferenceIdeal := by
  intro m ρ m' ρ' hpre hagree
  refine ⟨_, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v7_eq]
  obtain ⟨hx, hpsi⟩ := Cert.Finite.real_of_pre m hpre c
  funext j
  obtain ⟨o, n, rfl⟩ : ∃ (o : Fin 128) (n : Fin 32768), j = ix2 o n := ⟨j 0, j 1, eq_ix2 j⟩
  rw [Cert.ReferenceIdeal.RefValue.ref_apply]
  exact (Cert.KernelIdeal.Hand.kernel_out m c hx hpsi o n).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
